-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x128 : Shape := ⟨2, ![100000, 128]⟩
abbrev S500000x128 : Shape := ⟨2, ![500000, 128]⟩
abbrev S500000 : Shape := ⟨1, ![500000]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S500000x128 : S_.BroadcastsInDim S500000x128 (![] : Fin 0 → Fin S500000x128.rank)
  reducesTo_S500000x128_S_d0_1 : S500000x128.ReducesTo [0, 1] S_
  bcast_S_S500000 : S_.BroadcastsInDim S500000 (![] : Fin 0 → Fin S500000.rank)
  reducesTo_S500000_S_d0 : S500000.ReducesTo [0] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_arg12 : FVec F S384x128 .f32) (main_arg13 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384x128 .f32 := Host.absf main_arg12
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S384x128 .f32) (main_arg11 : FVec F S384 .f32) (main_arg12 : FVec F S384x128 .f32) (main_arg13 : FVec F S384 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg11
  let main_cst_18 : FVec F S_ .f32 := constant S_ .f32 0x7F800000#32
  let main_v50 : FVec F S384 .f32 := broadcastInDim S384 ![] bcast_S_S384 main_cst_18
  fn_part3 (F := F) main_arg12 main_arg13 main_v48 main_v49 main_v50

def fn_part1 {F : FTy → Type} [FloatOps F] (main_arg5 : FVec F S500000 .f32) (main_arg6 : FVec F S128x384 .f32) (main_arg7 : FVec F S128 .f32) (main_arg8 : FVec F S128x128 .f32) (main_arg9 : FVec F S128 .f32) (main_arg10 : FVec F S384x128 .f32) (main_arg11 : FVec F S384 .f32) (main_arg12 : FVec F S384x128 .f32) (main_arg13 : FVec F S384 .f32) (main_v13 : IVec S_ 1) (main_v16 : IVec S500000x128 1) : IVec S_ 1 :=
  let main_c_5 : IVec S_ 1 := constantI S_ 1 1#1
  let main_v17 : IVec S_ 1 := (fun x v => Host.reduce IntOp.andi x v reducesTo_S500000x128_S_d0_1 h_S_) main_v16 main_c_5
  let main_v18 : IVec S_ 1 := andi main_v13 main_v17
  let main_v19 : FVec F S500000 .f32 := Host.absf main_arg5
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S100000 32) (main_arg1 : FVec F S100000x128 .f32) (main_arg2 : FVec F S100000x128 .f32) (main_arg3 : FVec F S100000 .f32) (main_arg4 : FVec F S500000x128 .f32) (main_arg5 : FVec F S500000 .f32) (main_arg6 : FVec F S128x384 .f32) (main_arg7 : FVec F S128 .f32) (main_arg8 : FVec F S128x128 .f32) (main_arg9 : FVec F S128 .f32) (main_arg10 : FVec F S384x128 .f32) (main_arg11 : FVec F S384 .f32) (main_arg12 : FVec F S384x128 .f32) (main_arg13 : FVec F S384 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S500000x128 .f32 := Host.absf main_arg4
  let main_cst_4 : FVec F S_ .f32 := constant S_ .f32 0x7F800000#32
  let main_v15 : FVec F S500000x128 .f32 := broadcastInDim S500000x128 ![] bcast_S_S500000x128 main_cst_4
  let main_v16 : IVec S500000x128 1 := cmpf .olt main_v14 main_v15
  fn_part1 (F := F) main_arg5 main_arg6 main_arg7 main_arg8 main_arg9 main_arg10 main_arg11 main_arg12 main_arg13 main_v13 main_v16
-- ==== Kernel.lean ====
abbrev S100000 : Shape := ⟨1, ![100000]⟩
abbrev S100000x128 : Shape := ⟨2, ![100000, 128]⟩
abbrev S500000x128 : Shape := ⟨2, ![500000, 128]⟩
abbrev S500000 : Shape := ⟨1, ![500000]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S1000x128 : Shape := ⟨2, ![1000, 128]⟩
abbrev S1000x384 : Shape := ⟨2, ![1000, 384]⟩
abbrev S1x128 : Shape := ⟨2, ![1, 128]⟩
abbrev S1x384 : Shape := ⟨2, ![1, 384]⟩

abbrev nBuf : Space → Nat
  | .hbm => 62
  | .vmem => 18
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S500000x128, .f32⟩
  | .hbm, ⟨5, _⟩ => ⟨S500000, .f32⟩
  | .hbm, ⟨6, _⟩ => ⟨S128x384, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384, .f32⟩
  | .hbm, ⟨12, _⟩ => ⟨S384x128, .f32⟩
  | .hbm, ⟨13, _⟩ => ⟨S384, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x128, .f32⟩
  | .hbm, ⟨23, _⟩ => ⟨S384x128, .f32⟩
  | .hbm, ⟨24, _⟩ => ⟨S384x128, .bf16⟩
  | .hbm, ⟨25, _⟩ => ⟨S128x128, .f32⟩
  | .hbm, ⟨26, _⟩ => ⟨S128x128, .bf16⟩
  | .hbm, ⟨27, _⟩ => ⟨S128x384, .f32⟩
  | .hbm, ⟨28, _⟩ => ⟨S128x384, .bf16⟩
  | .hbm, ⟨29, _⟩ => ⟨S128x384, .f32⟩
  | .hbm, ⟨30, _⟩ => ⟨S128x384, .bf16⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S100000, .i32⟩
  | .hbm, ⟨35, _⟩ => ⟨S100000, .i1⟩
  | .hbm, ⟨36, _⟩ => ⟨S_, .i32⟩
  | .hbm, ⟨37, _⟩ => ⟨S100000, .i32⟩
  | .hbm, ⟨38, _⟩ => ⟨S100000, .i32⟩
  | .hbm, ⟨39, _⟩ => ⟨S100000, .i32⟩
  | .hbm, ⟨40, _⟩ => ⟨S100000x1, .i32⟩
  | .hbm, ⟨41, _⟩ => ⟨S500000x128, .f32⟩
  | .hbm, ⟨42, _⟩ => ⟨S_, .i32⟩
  | .hbm, ⟨43, _⟩ => ⟨S100000, .i32⟩
  | .hbm, ⟨44, _⟩ => ⟨S100000, .i1⟩
  | .hbm, ⟨45, _⟩ => ⟨S_, .i32⟩
  | .hbm, ⟨46, _⟩ => ⟨S100000, .i32⟩
  | .hbm, ⟨47, _⟩ => ⟨S100000, .i32⟩
  | .hbm, ⟨48, _⟩ => ⟨S100000, .i32⟩
  | .hbm, ⟨49, _⟩ => ⟨S100000x1, .i32⟩
  | .hbm, ⟨50, _⟩ => ⟨S500000, .f32⟩
  | .hbm, ⟨51, _⟩ => ⟨S_, .f32⟩
  | .hbm, ⟨52, _⟩ => ⟨S500000x128, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S500000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S384x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S128x384, .bf16⟩
  | .local _ .vmem, ⟨11, _⟩ => ⟨S384, .f32⟩
  | .local _ .vmem, ⟨12, _⟩ => ⟨S128x384, .bf16⟩
  | .local _ .vmem, ⟨13, _⟩ => ⟨S384, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S128x384_S384x128_1_0 : S128x384.Transposes [1, 0] S384x128
  bitsLt_bf16_f32 : FTy.bits .bf16 < FTy.bits .f32
  transposes_S128x128_S128x128_1_0 : S128x128.Transposes [1, 0] S128x128
  transposes_S384x128_S128x384_1_0 : S384x128.Transposes [1, 0] S128x384
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x128_S1000x384_d1 : Shape.Concatenates [S1000x128, S1000x128, S1000x128] S1000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  bcast_S_S500000x128 : S_.BroadcastsInDim S500000x128 (![] : Fin 0 → Fin S500000x128.rank)
  gather_S500000x128_S100000x1_S100000x128_1_0_n_n_0_1_1128_wf : GatherDims.WF S500000x128 S100000x1 S100000x128 [1] [0] [] [0] [] 1 ![1, 128]
  dot_S1000x384_S384x128_S1000x128_1_0_0_1_n_n_wf : DotDims.WF S1000x384 S384x128 S1000x128 [1] [0] [0] [1] [] []
  dot_S1000x128_S128x128_S1000x128_1_0_0_1_n_n_wf : DotDims.WF S1000x128 S128x128 S1000x128 [1] [0] [0] [1] [] []
  dot_S1000x128_S128x384_S1000x384_1_0_0_1_n_n_wf : DotDims.WF S1000x128 S128x384 S1000x384 [1] [0] [0] [1] [] []
  scatter_S500000x128_S100000x1_S100000x128_1_0_0_1_wf : ScatterDims.WF S500000x128 S100000x1 S100000x128 [1] [0] [0] 1
  scatter_S500000_S100000x1_S100000_n_0_0_1_wf : ScatterDims.WF S500000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .bf16 = 32 ∨ (Rect.block (s := S128x384) S128x384.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384.size a ≤ S384.size a
  hwx0_8 : ∀ i : grid0.Coords, EltTy.bits .f32 = 32 ∨ (Rect.block (s := S384) S384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x384.size a ≤ S128x384.size a
  hwx0_9 : ∀ i : grid0.Coords, EltTy.bits .bf16 = 32 ∨ (Rect.block (s := S128x384) S128x384.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384.size a ≤ S384.size a
  hwx0_10 : ∀ i : grid0.Coords, EltTy.bits .f32 = 32 ∨ (Rect.block (s := S384) S384.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x128.size a ≤ S100000x128.size a
  hwx0_11 : ∀ i : grid0.Coords, EltTy.bits .f32 = 32 ∨ (Rect.block (s := S100000x128) S1000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x128.size a ≤ S100000x128.size a
  hwx0_12 : ∀ i : grid0.Coords, EltTy.bits .f32 = 32 ∨ (Rect.block (s := S100000x128) S1000x128.size (cc0_transform_12 i) (hinb0_12 i)).WholeWords (EltTy.packing .f32)

variable [Facts₀]

def gather_S500000x128_S100000x1_S100000x128_1_0_n_n_0_1_1128 : GatherDims S500000x128 S100000x1 S100000x128 where
  offsetDims := [1]
  collapsedSliceDims := [0]
  operandBatchingDims := []
  startIndicesBatchingDims := []
  startIndexMap := [0]
  indexVectorDim := 1
  sliceSizes := ![1, 128]
  wf := gather_S500000x128_S100000x1_S100000x128_1_0_n_n_0_1_1128_wf
def dot_S1000x384_S384x128_S1000x128_1_0_0_1_n_n : DotDims S1000x384 S384x128 S1000x128 where
  lhsContracting := [1]
  rhsContracting := [0]
  lhsNonContracting := [0]
  rhsNonContracting := [1]
  lhsBatch := []
  rhsBatch := []
  wf := dot_S1000x384_S384x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def scatter_S500000x128_S100000x1_S100000x128_1_0_0_1 : ScatterDims S500000x128 S100000x1 S100000x128 where
  updateWindowDims := [1]
  insertedWindowDims := [0]
  scatterDimsToOperandDims := [0]
  indexVectorDim := 1
  wf := scatter_S500000x128_S100000x1_S100000x128_1_0_0_1_wf
def scatter_S500000_S100000x1_S100000_n_0_0_1 : ScatterDims S500000 S100000x1 S100000 where
  updateWindowDims := []
  insertedWindowDims := [0]
  scatterDimsToOperandDims := [0]
  indexVectorDim := 1
  wf := scatter_S500000_S100000x1_S100000_n_0_0_1_wf

abbrev win0_0 : Pipeline.Window sig grid0 :=
  Pipeline.Window.ofSpec (Memref.whole main_arg1) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S128x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15_0) S1000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v15_1) S1000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000 : Shape := ⟨1, ![100000]⟩
abbrev S100000x128 : Shape := ⟨2, ![100000, 128]⟩
abbrev S500000x128 : Shape := ⟨2, ![500000, 128]⟩
abbrev S500000 : Shape := ⟨1, ![500000]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S100000x384 : Shape := ⟨2, ![100000, 384]⟩
abbrev S1x128 : Shape := ⟨2, ![1, 128]⟩
abbrev S1x384 : Shape := ⟨2, ![1, 384]⟩

abbrev nBuf : Space → Nat
  | .hbm => 109
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S500000x128, .f32⟩
  | .hbm, ⟨5, _⟩ => ⟨S500000, .f32⟩
  | .hbm, ⟨6, _⟩ => ⟨S128x384, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384, .f32⟩
  | .hbm, ⟨12, _⟩ => ⟨S384x128, .f32⟩
  | .hbm, ⟨13, _⟩ => ⟨S384, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x128, .f32⟩
  | .hbm, ⟨23, _⟩ => ⟨S100000x384, .f32⟩
  | .hbm, ⟨24, _⟩ => ⟨S384x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S128x384, .f32⟩
  | .hbm, ⟨38, _⟩ => ⟨S100000x384, .f32⟩
  | .hbm, ⟨39, _⟩ => ⟨S1x384, .f32⟩
  | .hbm, ⟨40, _⟩ => ⟨S100000x384, .f32⟩
  | .hbm, ⟨41, _⟩ => ⟨S100000x384, .f32⟩
  | .hbm, ⟨42, _⟩ => ⟨S128x384, .f32⟩
  | .hbm, ⟨43, _⟩ => ⟨S100000x384, .f32⟩
  | .hbm, ⟨44, _⟩ => ⟨S1x384, .f32⟩
  | .hbm, ⟨45, _⟩ => ⟨S100000x384, .f32⟩
  | .hbm, ⟨46, _⟩ => ⟨S100000x384, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S100000, .i32⟩
  | .hbm, ⟨87, _⟩ => ⟨S100000x1, .i32⟩
  | .hbm, ⟨88, _⟩ => ⟨S500000x128, .f32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S_, .i32⟩
  | .hbm, ⟨93, _⟩ => ⟨S100000, .i32⟩
  | .hbm, ⟨94, _⟩ => ⟨S100000, .i32⟩
  | .hbm, ⟨95, _⟩ => ⟨S100000, .i32⟩
  | .hbm, ⟨96, _⟩ => ⟨S100000x1, .i32⟩
  | .hbm, ⟨97, _⟩ => ⟨S500000, .f32⟩
  | .hbm, ⟨98, _⟩ => ⟨S_, .f32⟩
  | .hbm, ⟨99, _⟩ => ⟨S500000x128, .f32⟩
  | .hbm, ⟨100, _⟩ => ⟨S_, .i32⟩
  | .hbm, ⟨101, _⟩ => ⟨S100000, .i32⟩
  | .hbm, ⟨102, _⟩ => ⟨S100000, .i1⟩
  | .hbm, ⟨103, _⟩ => ⟨S_, .i32⟩
  | .hbm, ⟨104, _⟩ => ⟨S100000, .i32⟩
  | .hbm, ⟨105, _⟩ => ⟨S100000, .i32⟩
  | .hbm, ⟨106, _⟩ => ⟨S100000, .i32⟩
  | .hbm, ⟨107, _⟩ => ⟨S100000x1, .i32⟩
  | .hbm, ⟨108, _⟩ => ⟨S500000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call0_cst : Ref sig .tc := ⟨.hbm, 29, rfl⟩
abbrev main_call0_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_cst_1 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_5 : Ref sig .tc := ⟨.hbm, 80, rfl⟩
abbrev main_v57 : Ref sig .tc := ⟨.hbm, 81, rfl⟩
abbrev main_v58 : Ref sig .tc := ⟨.hbm, 82, rfl⟩
abbrev main_c_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_7 : Ref sig .tc := ⟨.hbm, 89, rfl⟩
abbrev main_v64 : Ref sig .tc := ⟨.hbm, 90, rfl⟩
abbrev main_v65 : Ref sig .tc := ⟨.hbm, 91, rfl⟩
abbrev main_c_8 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_9 : Ref sig .tc := ⟨.hbm, 98, rfl⟩
abbrev main_v71 : Ref sig .tc := ⟨.hbm, 99, rfl⟩
abbrev main_c_10 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  transposes_S128x384_S384x128_1_0 : S128x384.Transposes [1, 0] S384x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S500000x128 : S_.BroadcastsInDim S500000x128 (![] : Fin 0 → Fin S500000x128.rank)
  gather_S500000x128_S100000x1_S100000x128_1_0_n_n_0_1_1128_wf : GatherDims.WF S500000x128 S100000x1 S100000x128 [1] [0] [] [0] [] 1 ![1, 128]
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []
  dot_S100000x128_S128x384_S100000x384_1_0_0_1_n_n_wf : DotDims.WF S100000x128 S128x384 S100000x384 [1] [0] [0] [1] [] []
  scatter_S500000x128_S100000x1_S100000x128_1_0_0_1_wf : ScatterDims.WF S500000x128 S100000x1 S100000x128 [1] [0] [0] 1
  scatter_S500000_S100000x1_S100000_n_0_0_1_wf : ScatterDims.WF S500000 S100000x1 S100000 [] [0] [0] 1

variable [Facts₀]

def gather_S500000x128_S100000x1_S100000x128_1_0_n_n_0_1_1128 : GatherDims S500000x128 S100000x1 S100000x128 where
  offsetDims := [1]
  collapsedSliceDims := [0]
  operandBatchingDims := []
  startIndicesBatchingDims := []
  startIndexMap := [0]
  indexVectorDim := 1
  sliceSizes := ![1, 128]
  wf := gather_S500000x128_S100000x1_S100000x128_1_0_n_n_0_1_1128_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S500000x128_S100000x1_S100000x128_1_0_0_1 : ScatterDims S500000x128 S100000x1 S100000x128 where
  updateWindowDims := [1]
  insertedWindowDims := [0]
  scatterDimsToOperandDims := [0]
  indexVectorDim := 1
  wf := scatter_S500000x128_S100000x1_S100000x128_1_0_0_1_wf
def scatter_S500000_S100000x1_S100000_n_0_0_1 : ScatterDims S500000 S100000x1 S100000 where
  updateWindowDims := []
  insertedWindowDims := [0]
  scatterDimsToOperandDims := [0]
  indexVectorDim := 1
  wf := scatter_S500000_S100000x1_S100000_n_0_0_1_wf

class Facts : Prop extends Facts₀ where

variable [Facts]
-- ==== Proof.GruRow.lean ====
/-
  The mathematics both programs compute, one batch row at a time.

  A row of the batch is the three 128-vectors (node features, the node's gathered memory row, edge features) laid end to
  end (`cat3`, 384 entries). With every weight matrix given TRANSPOSED (`wt (k, j) = W (j, k)`: contraction index first)
  an affine layer is `affine x wt b j = ∑ k, x k * wt (k, j) + b j`. The message of the row is
  `affine (relu (affine x W1ᵀ b1)) W2ᵀ b2`; the GRU cell's two pre-activations are `gi = affine message W_ihᵀ b_ih` and
  `gh = affine h W_hhᵀ b_hh` (384 entries each: the reset, update and candidate thirds at offsets 0, 128, 256), and the
  new memory row is `(1 - z) · n + z · h` with `r = σ (gi_r + gh_r)`, `z = σ (gi_z + gh_z)`, `n = tanh (gi_n + r · gh_n)`.
  All of it over the extended reals: no law beyond reading each operation at an index is used, so no finiteness.
  The float words `0.0` and `1.0` stay as their bit patterns (the same word on both sides is never evaluated).
-/
import Idealize.ShloMosaic.PureOps.Ideal
import Idealize.ShloMosaic.Lib.ValueIdx

noncomputable section

open scoped BigOperators

namespace Cert.GruRow

open Idealize.ShloMosaic Idealize.ShloMosaic.ValueIdx

/-- Three 128-vectors laid end to end. -/
def cat3 (a b c : Fin 128 → EReal) (k : Fin 384) : EReal :=
  if h : k.val < 128 then a ⟨k.val, h⟩
  else if h' : k.val < 256 then b ⟨k.val - 128, by omega⟩
  else c ⟨k.val - 256, by omega⟩

/-- `x · Wᵀ + b`, the weight given transposed (contraction index first). -/
def affine {K C : ℕ} (x : Fin K → EReal) (wt : (⟨2, ![K, C]⟩ : Shape).Idx → EReal)
    (b : (⟨1, ![C]⟩ : Shape).Idx → EReal) (j : Fin C) : EReal :=
  (∑ k : Fin K, x k * wt (ix2 k j)) + b (ix1 j)

/-- The float word of `0.0`, the float word of `1.0`. -/
abbrev zeroW : EReal := Ideal.ofBits .f32 0x00000000#32
abbrev oneW : EReal := Ideal.ofBits .f32 0x3F800000#32

/-- The hidden layer of the message network: `relu (x · W1ᵀ + b1)`. -/
def hidden (x : Fin 384 → EReal) (w1t : (⟨2, ![384, 128]⟩ : Shape).Idx → EReal) (b1 : (⟨1, ![128]⟩ : Shape).Idx → EReal)
    (j : Fin 128) : EReal :=
  max (affine x w1t b1 j) zeroW

/-- The message of one row. -/
def message (x : Fin 384 → EReal) (w1t : (⟨2, ![384, 128]⟩ : Shape).Idx → EReal) (b1 : (⟨1, ![128]⟩ : Shape).Idx → EReal)
    (w2t : (⟨2, ![128, 128]⟩ : Shape).Idx → EReal) (b2 : (⟨1, ![128]⟩ : Shape).Idx → EReal) (j : Fin 128) : EReal :=
  affine (hidden x w1t b1) w2t b2 j

/-- Entry `o + j` of a 384-vector: the third that starts at `o`. -/
abbrev third (o : ℕ) (ho : o + 128 ≤ 384) (j : Fin 128) : Fin 384 := ⟨o + j.val, by omega⟩

/-- The GRU cell's new hidden entry from the two pre-activations and the old hidden row. -/
def gru (gi gh : Fin 384 → EReal) (h : Fin 128 → EReal) (j : Fin 128) : EReal :=
  (oneW - Ideal.logistic (gi (third 128 (by decide) j) + gh (third 128 (by decide) j)))
      * Ideal.tanh (gi (third 256 (by decide) j)
          + Ideal.logistic (gi (third 0 (by decide) j) + gh (third 0 (by decide) j)) * gh (third 256 (by decide) j))
    + Ideal.logistic (gi (third 128 (by decide) j) + gh (third 128 (by decide) j)) * h j

/-- The new memory row of one batch row. -/
def updated (x : Fin 384 → EReal) (h : Fin 128 → EReal)
    (w1t : (⟨2, ![384, 128]⟩ : Shape).Idx → EReal) (b1 : (⟨1, ![128]⟩ : Shape).Idx → EReal)
    (w2t : (⟨2, ![128, 128]⟩ : Shape).Idx → EReal) (b2 : (⟨1, ![128]⟩ : Shape).Idx → EReal)
    (wiht : (⟨2, ![128, 384]⟩ : Shape).Idx → EReal) (bih : (⟨1, ![384]⟩ : Shape).Idx → EReal)
    (whht : (⟨2, ![128, 384]⟩ : Shape).Idx → EReal) (bhh : (⟨1, ![384]⟩ : Shape).Idx → EReal) (j : Fin 128) : EReal :=
  gru (affine (message x w1t b1 w2t b2) wiht bih) (affine h whht bhh) h j

/-- Row `p` of an array of 128-wide rows. -/
def row {R : ℕ} (X : (⟨2, ![R, 128]⟩ : Shape).Idx → EReal) (p : Fin R) : Fin 128 → EReal := fun k => X (ix2 p k)

/-- The messages of every row of a batch of `R` rows. -/
def messagesOf {R : ℕ} (nf nm ef : (⟨2, ![R, 128]⟩ : Shape).Idx → EReal)
    (w1t : (⟨2, ![384, 128]⟩ : Shape).Idx → EReal) (b1 : (⟨1, ![128]⟩ : Shape).Idx → EReal)
    (w2t : (⟨2, ![128, 128]⟩ : Shape).Idx → EReal) (b2 : (⟨1, ![128]⟩ : Shape).Idx → EReal) :
    (⟨2, ![R, 128]⟩ : Shape).Idx → EReal :=
  fun i => message (cat3 (row nf (i 0)) (row nm (i 0)) (row ef (i 0))) w1t b1 w2t b2 (i 1)

/-- The new memory rows of every row of a batch of `R` rows. -/
def updatedOf {R : ℕ} (nf nm ef : (⟨2, ![R, 128]⟩ : Shape).Idx → EReal)
    (w1t : (⟨2, ![384, 128]⟩ : Shape).Idx → EReal) (b1 : (⟨1, ![128]⟩ : Shape).Idx → EReal)
    (w2t : (⟨2, ![128, 128]⟩ : Shape).Idx → EReal) (b2 : (⟨1, ![128]⟩ : Shape).Idx → EReal)
    (wiht : (⟨2, ![128, 384]⟩ : Shape).Idx → EReal) (bih : (⟨1, ![384]⟩ : Shape).Idx → EReal)
    (whht : (⟨2, ![128, 384]⟩ : Shape).Idx → EReal) (bhh : (⟨1, ![384]⟩ : Shape).Idx → EReal) :
    (⟨2, ![R, 128]⟩ : Shape).Idx → EReal :=
  fun i => updated (cat3 (row nf (i 0)) (row nm (i 0)) (row ef (i 0))) (row nm (i 0))
    w1t b1 w2t b2 wiht bih whht bhh (i 1)

end Cert.GruRow

end
-- ==== Proof.KernelBlocks.lean ====
/-
  The kernel's region seen from the arrays. Each of the three row operands (node features, the gathered memory rows,
  edge features) is cut into 100 blocks of 1000 rows, and block `t` holds rows `1000 t … 1000 t + 999`; the four weight
  matrices and four bias vectors are each one block, the whole array, at every grid point. Before the region the host
  gathers the memory rows at the (wrapped) node indices and transposes each weight matrix (the change of float format is
  the identity at the ideal instance); after it the host scatters the two result arrays, and the timestamps, at the same
  wrapped indices. This module reads those facts off the run; the arithmetic is elsewhere.
-/
import proofs.«139267_j34033320854152_1_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg)

/-! ## Which block each window holds at a grid point -/

/-- The row operands and both results move down the rows with the grid point, one block of 1000 rows per point. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weights and biases stay at block 0. -/
theorem idx_whole : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

theorem point_lt (t : Fin cfg0.N) : t.val < 100 := lt_of_lt_of_eq t.isLt N_0

/-- Row `p` of window 0's block at point `t` is row `1000 t + p` of its array. -/
theorem iblk0_apply (c : Dev nD) (t : Fin cfg0.N) (p : Fin 1000) (k : Fin 128) (r : Fin 100000) (hr : r.val = 1000 * t.val + p.val) :
    (iblk m c 0 t : Vec F S1000x128 .f32) (ix2 p k) = (V m c main_arg1 : S100000x128.Idx → Elt F .f32) (ix2 r k) := by
  obtain ⟨h0, h1, -⟩ := idx_rows t
  unfold iblk
  rw [View.read_apply]
  show V m c main_arg1 _ = V m c main_arg1 _
  congr 1
  funext a
  apply Fin.ext
  match a with
  | ⟨0, _⟩ => show win0_0.index t 0 * 1000 + 1 * p.val = r.val; rw [h0, hr]; omega
  | ⟨1, _⟩ => show win0_0.index t 1 * 128 + 1 * k.val = k.val; rw [h1]; omega

/-- Row `p` of window 1's block at point `t` is row `1000 t + p` of its array. -/
theorem iblk1_apply (c : Dev nD) (t : Fin cfg0.N) (p : Fin 1000) (k : Fin 128) (r : Fin 100000) (hr : r.val = 1000 * t.val + p.val) :
    (iblk m c 1 t : Vec F S1000x128 .f32) (ix2 p k) = (V m c main_v6 : S100000x128.Idx → Elt F .f32) (ix2 r k) := by
  obtain ⟨-, -, h0, h1, -⟩ := idx_rows t
  unfold iblk
  rw [View.read_apply]
  show V m c main_v6 _ = V m c main_v6 _
  congr 1
  funext a
  apply Fin.ext
  match a with
  | ⟨0, _⟩ => show win0_1.index t 0 * 1000 + 1 * p.val = r.val; rw [h0, hr]; omega
  | ⟨1, _⟩ => show win0_1.index t 1 * 128 + 1 * k.val = k.val; rw [h1]; omega

/-- Row `p` of window 2's block at point `t` is row `1000 t + p` of its array. -/
theorem iblk2_apply (c : Dev nD) (t : Fin cfg0.N) (p : Fin 1000) (k : Fin 128) (r : Fin 100000) (hr : r.val = 1000 * t.val + p.val) :
    (iblk m c 2 t : Vec F S1000x128 .f32) (ix2 p k) = (V m c main_arg2 : S100000x128.Idx → Elt F .f32) (ix2 r k) := by
  obtain ⟨-, -, -, -, h0, h1, -⟩ := idx_rows t
  unfold iblk
  rw [View.read_apply]
  show V m c main_arg2 _ = V m c main_arg2 _
  congr 1
  funext a
  apply Fin.ext
  match a with
  | ⟨0, _⟩ => show win0_2.index t 0 * 1000 + 1 * p.val = r.val; rw [h0, hr]; omega
  | ⟨1, _⟩ => show win0_2.index t 1 * 128 + 1 * k.val = k.val; rw [h1]; omega

/-- Window 3's block is its whole array at every point. -/
theorem iblk3_eq (c : Dev nD) (t : Fin cfg0.N) : (iblk m c 3 t : Vec F S384x128 .bf16) = (V m c main_v8 : S384x128.Idx → Elt F .bf16) := by
  obtain ⟨h0, h1, -⟩ := idx_whole t
  funext y
  unfold iblk
  rw [View.read_apply]
  show V m c main_v8 _ = V m c main_v8 y
  congr 1
  funext a
  apply Fin.ext
  match a with
  | ⟨0, _⟩ => show win0_3.index t 0 * 384 + 1 * (y 0).val = (y 0).val; rw [h0]; omega
  | ⟨1, _⟩ => show win0_3.index t 1 * 128 + 1 * (y 1).val = (y 1).val; rw [h1]; omega

/-- Window 4's block is its whole array at every point. -/
theorem iblk4_eq (c : Dev nD) (t : Fin cfg0.N) : (iblk m c 4 t : Vec F S128 .f32) = (V m c main_arg7 : S128.Idx → Elt F .f32) := by
  obtain ⟨-, -, h0, -⟩ := idx_whole t
  funext y
  unfold iblk
  rw [View.read_apply]
  show V m c main_arg7 _ = V m c main_arg7 y
  congr 1
  funext a
  apply Fin.ext
  match a with
  | ⟨0, _⟩ => show win0_4.index t 0 * 128 + 1 * (y 0).val = (y 0).val; rw [h0]; omega

/-- Window 5's block is its whole array at every point. -/
theorem iblk5_eq (c : Dev nD) (t : Fin cfg0.N) : (iblk m c 5 t : Vec F S128x128 .bf16) = (V m c main_v10 : S128x128.Idx → Elt F .bf16) := by
  obtain ⟨-, -, -, h0, h1, -⟩ := idx_whole t
  funext y
  unfold iblk
  rw [View.read_apply]
  show V m c main_v10 _ = V m c main_v10 y
  congr 1
  funext a
  apply Fin.ext
  match a with
  | ⟨0, _⟩ => show win0_5.index t 0 * 128 + 1 * (y 0).val = (y 0).val; rw [h0]; omega
  | ⟨1, _⟩ => show win0_5.index t 1 * 128 + 1 * (y 1).val = (y 1).val; rw [h1]; omega

/-- Window 6's block is its whole array at every point. -/
theorem iblk6_eq (c : Dev nD) (t : Fin cfg0.N) : (iblk m c 6 t : Vec F S128 .f32) = (V m c main_arg9 : S128.Idx → Elt F .f32) := by
  obtain ⟨-, -, -, -, -, h0, -⟩ := idx_whole t
  funext y
  unfold iblk
  rw [View.read_apply]
  show V m c main_arg9 _ = V m c main_arg9 y
  congr 1
  funext a
  apply Fin.ext
  match a with
  | ⟨0, _⟩ => show win0_6.index t 0 * 128 + 1 * (y 0).val = (y 0).val; rw [h0]; omega

/-- Window 7's block is its whole array at every point. -/
theorem iblk7_eq (c : Dev nD) (t : Fin cfg0.N) : (iblk m c 7 t : Vec F S128x384 .bf16) = (V m c main_v12 : S128x384.Idx → Elt F .bf16) := by
  obtain ⟨-, -, -, -, -, -, h0, h1, -⟩ := idx_whole t
  funext y
  unfold iblk
  rw [View.read_apply]
  show V m c main_v12 _ = V m c main_v12 y
  congr 1
  funext a
  apply Fin.ext
  match a with
  | ⟨0, _⟩ => show win0_7.index t 0 * 128 + 1 * (y 0).val = (y 0).val; rw [h0]; omega
  | ⟨1, _⟩ => show win0_7.index t 1 * 384 + 1 * (y 1).val = (y 1).val; rw [h1]; omega

/-- Window 8's block is its whole array at every point. -/
theorem iblk8_eq (c : Dev nD) (t : Fin cfg0.N) : (iblk m c 8 t : Vec F S384 .f32) = (V m c main_arg11 : S384.Idx → Elt F .f32) := by
  obtain ⟨-, -, -, -, -, -, -, -, h0, -⟩ := idx_whole t
  funext y
  unfold iblk
  rw [View.read_apply]
  show V m c main_arg11 _ = V m c main_arg11 y
  congr 1
  funext a
  apply Fin.ext
  match a with
  | ⟨0, _⟩ => show win0_8.index t 0 * 384 + 1 * (y 0).val = (y 0).val; rw [h0]; omega

/-- Window 9's block is its whole array at every point. -/
theorem iblk9_eq (c : Dev nD) (t : Fin cfg0.N) : (iblk m c 9 t : Vec F S128x384 .bf16) = (V m c main_v14 : S128x384.Idx → Elt F .bf16) := by
  obtain ⟨-, -, -, -, -, -, -, -, -, h0, h1, -⟩ := idx_whole t
  funext y
  unfold iblk
  rw [View.read_apply]
  show V m c main_v14 _ = V m c main_v14 y
  congr 1
  funext a
  apply Fin.ext
  match a with
  | ⟨0, _⟩ => show win0_9.index t 0 * 128 + 1 * (y 0).val = (y 0).val; rw [h0]; omega
  | ⟨1, _⟩ => show win0_9.index t 1 * 384 + 1 * (y 1).val = (y 1).val; rw [h1]; omega

/-- Window 10's block is its whole array at every point. -/
theorem iblk10_eq (c : Dev nD) (t : Fin cfg0.N) : (iblk m c 10 t : Vec F S384 .f32) = (V m c main_arg13 : S384.Idx → Elt F .f32) := by
  obtain ⟨-, -, -, -, -, -, -, -, -, -, -, h0⟩ := idx_whole t
  funext y
  unfold iblk
  rw [View.read_apply]
  show V m c main_arg13 _ = V m c main_arg13 y
  congr 1
  funext a
  apply Fin.ext
  match a with
  | ⟨0, _⟩ => show win0_10.index t 0 * 384 + 1 * (y 0).val = (y 0).val; rw [h0]; omega

/-! ## What the host computed before the region -/

/-- The node indices as the gather and the scatters use them: a negative index wrapped by the table's 500000 rows,
    as one column. -/
abbrev wrapped (x0 : (⟨S100000, .i32⟩ : BufTy).Contents (Elt F)) : (⟨S100000x1, .i32⟩ : BufTy).Contents (Elt F) :=
  (broadcastInDim S100000x1 ![0] bcast_S100000_S100000x1_0
        (select (cmpi CmpIPredicate.slt x0 (broadcastInDim S100000 ![] bcast_S_S100000 (constantI S_ 32 0#32)))
          (addi x0 (broadcastInDim S100000 ![] bcast_S_S100000 (constantI S_ 32 500000#32))) x0))

/-- The memory rows gathered at the node indices. -/
theorem V_v6 (c : Dev nD) : (V m c main_v6 : S100000x128.Idx → Elt F .f32)
    = Host.gather gather_S500000x128_S100000x1_S100000x128_1_0_n_n_0_1_1128 (m ((c : Thread nD τ).loc main_arg4)) (wrapped (m ((c : Thread nD τ).loc main_arg0))) := by
  show StableHlo.after hostOps0 (fun b => m (c, b)) (Proc.devRef .tc main_v6) = _
  after_results

theorem V_v8 (c : Dev nD) : (V m c main_v8 : S384x128.Idx → Elt F .bf16)
    = truncf .bf16 (transpose S384x128 [1, 0] (m ((c : Thread nD τ).loc main_arg6)) transposes_S128x384_S384x128_1_0) bitsLt_bf16_f32 := by
  show StableHlo.after hostOps0 (fun b => m (c, b)) (Proc.devRef .tc main_v8) = _
  after_results

theorem V_v10 (c : Dev nD) : (V m c main_v10 : S128x128.Idx → Elt F .bf16)
    = truncf .bf16 (transpose S128x128 [1, 0] (m ((c : Thread nD τ).loc main_arg8)) transposes_S128x128_S128x128_1_0) bitsLt_bf16_f32 := by
  show StableHlo.after hostOps0 (fun b => m (c, b)) (Proc.devRef .tc main_v10) = _
  after_results

theorem V_v12 (c : Dev nD) : (V m c main_v12 : S128x384.Idx → Elt F .bf16)
    = truncf .bf16 (transpose S128x384 [1, 0] (m ((c : Thread nD τ).loc main_arg10)) transposes_S384x128_S128x384_1_0) bitsLt_bf16_f32 := by
  show StableHlo.after hostOps0 (fun b => m (c, b)) (Proc.devRef .tc main_v12) = _
  after_results

theorem V_v14 (c : Dev nD) : (V m c main_v14 : S128x384.Idx → Elt F .bf16)
    = truncf .bf16 (transpose S128x384 [1, 0] (m ((c : Thread nD τ).loc main_arg12)) transposes_S384x128_S128x384_1_0) bitsLt_bf16_f32 := by
  show StableHlo.after hostOps0 (fun b => m (c, b)) (Proc.devRef .tc main_v14) = _
  after_results

/-! ## What the host computes after the region -/

/-- The region's two result arrays as the lines after it find them. -/
theorem tail_arr12 (c : Dev nD) : Pipeline.withArrays (cfgs 0).spec c (V0 m c) (fun w => (dats m 0 c).arrAt w (cfgs 0).N)
      (Proc.devRef .tc main_v15_1) = (dats m 0 c).arrAt 12 cfg0.N :=
  Pipeline.withArrays_arr spec0 launch0.win.arr_inj c _ _ 12
theorem tail_arr11 (c : Dev nD) : Pipeline.withArrays (cfgs 0).spec c (V0 m c) (fun w => (dats m 0 c).arrAt w (cfgs 0).N)
      (Proc.devRef .tc main_v15_0) = (dats m 0 c).arrAt 11 cfg0.N :=
  Pipeline.withArrays_arr spec0 launch0.win.arr_inj c _ _ 11
theorem tail_arg0 (c : Dev nD) : Pipeline.withArrays (cfgs 0).spec c (V0 m c) (fun w => (dats m 0 c).arrAt w (cfgs 0).N)
      (Proc.devRef .tc main_arg0) = (m ((c : Thread nD τ).loc main_arg0)) :=
  (Pipeline.withArrays_of_ne _ c (V0 m c) _ main_arg0 (by exact (by decide : ∀ w, Pipeline.arrRef spec0 w ≠ main_arg0))).trans (V_main_arg0 m c)
theorem tail_arg3 (c : Dev nD) : Pipeline.withArrays (cfgs 0).spec c (V0 m c) (fun w => (dats m 0 c).arrAt w (cfgs 0).N)
      (Proc.devRef .tc main_arg3) = (m ((c : Thread nD τ).loc main_arg3)) :=
  (Pipeline.withArrays_of_ne _ c (V0 m c) _ main_arg3 (by exact (by decide : ∀ w, Pipeline.arrRef spec0 w ≠ main_arg3))).trans (V_main_arg3 m c)
theorem tail_arg4 (c : Dev nD) : Pipeline.withArrays (cfgs 0).spec c (V0 m c) (fun w => (dats m 0 c).arrAt w (cfgs 0).N)
      (Proc.devRef .tc main_arg4) = (m ((c : Thread nD τ).loc main_arg4)) :=
  (Pipeline.withArrays_of_ne _ c (V0 m c) _ main_arg4 (by exact (by decide : ∀ w, Pipeline.arrRef spec0 w ≠ main_arg4))).trans (V_main_arg4 m c)
theorem tail_arg5 (c : Dev nD) : Pipeline.withArrays (cfgs 0).spec c (V0 m c) (fun w => (dats m 0 c).arrAt w (cfgs 0).N)
      (Proc.devRef .tc main_arg5) = (m ((c : Thread nD τ).loc main_arg5)) :=
  (Pipeline.withArrays_of_ne _ c (V0 m c) _ main_arg5 (by exact (by decide : ∀ w, Pipeline.arrRef spec0 w ≠ main_arg5))).trans (V_main_arg5 m c)

set_option maxHeartbeats 4000000 in
/-- The new memory table: the old one with the updated rows scattered in at the wrapped node indices. -/
theorem tail_v22 (c : Dev nD) : Pipeline.afterTail₀ cfgs (dats m) 0 (V0 m) [hostOps1] c main_v22
    = Host.scatter scatter_S500000x128_S100000x1_S100000x128_1_0_0_1 (fun _ b => b) (m ((c : Thread nD τ).loc main_arg4)) (wrapped (m ((c : Thread nD τ).loc main_arg0)))
        ((dats m 0 c).arrAt 12 cfg0.N) := by
  unfold Pipeline.afterTail₀
  show StableHlo.after hostOps1 _ (Proc.devRef .tc main_v22) = _
  after_results
  rw [tail_arg4 m c, tail_arg0 m c, tail_arr12 m c]
  rfl

set_option maxHeartbeats 4000000 in
/-- The new last-update vector: the old one with the timestamps scattered in. -/
theorem tail_v29 (c : Dev nD) : Pipeline.afterTail₀ cfgs (dats m) 0 (V0 m) [hostOps1] c main_v29
    = Host.scatter scatter_S500000_S100000x1_S100000_n_0_0_1 (fun _ b => b) (m ((c : Thread nD τ).loc main_arg5)) (wrapped (m ((c : Thread nD τ).loc main_arg0))) (m ((c : Thread nD τ).loc main_arg3)) := by
  unfold Pipeline.afterTail₀
  show StableHlo.after hostOps1 _ (Proc.devRef .tc main_v29) = _
  after_results
  rw [tail_arg5 m c, tail_arg0 m c, tail_arg3 m c]
  rfl

set_option maxHeartbeats 4000000 in
/-- The new message table: zeros with the messages scattered in. -/
theorem tail_v37 (c : Dev nD) : Pipeline.afterTail₀ cfgs (dats m) 0 (V0 m) [hostOps1] c main_v37
    = Host.scatter scatter_S500000x128_S100000x1_S100000x128_1_0_0_1 (fun _ b => b)
        (broadcastInDim S500000x128 ![] bcast_S_S500000x128 (constant S_ .f32 0x00000000#32)) (wrapped (m ((c : Thread nD τ).loc main_arg0)))
        ((dats m 0 c).arrAt 11 cfg0.N) := by
  unfold Pipeline.afterTail₀
  show StableHlo.after hostOps1 _ (Proc.devRef .tc main_v37) = _
  after_results
  rw [tail_arg0 m c, tail_arr11 m c]

/-! ## The arguments end as launched -/

theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(((h c).2 main_arg0 (Pipeline.mem_restRefs_of main_arg0 (by decide) (by decide))).trans (W_main_arg0 m (dats m) c)),
    ((h c).1 0).trans ((((dats m) 0 c).arrAt_in 0 rfl _).trans ((A_eq m c 0).trans (V_main_arg1 m c))),
    ((h c).1 2).trans ((((dats m) 0 c).arrAt_in 2 rfl _).trans ((A_eq m c 2).trans (V_main_arg2 m c))),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c)),
    ((h c).1 4).trans ((((dats m) 0 c).arrAt_in 4 rfl _).trans ((A_eq m c 4).trans (V_main_arg7 m c))),
    (((h c).2 main_arg8 (Pipeline.mem_restRefs_of main_arg8 (by decide) (by decide))).trans (W_main_arg8 m (dats m) c)),
    ((h c).1 6).trans ((((dats m) 0 c).arrAt_in 6 rfl _).trans ((A_eq m c 6).trans (V_main_arg9 m c))),
    (((h c).2 main_arg10 (Pipeline.mem_restRefs_of main_arg10 (by decide) (by decide))).trans (W_main_arg10 m (dats m) c)),
    ((h c).1 8).trans ((((dats m) 0 c).arrAt_in 8 rfl _).trans ((A_eq m c 8).trans (V_main_arg11 m c))),
    (((h c).2 main_arg12 (Pipeline.mem_restRefs_of main_arg12 (by decide) (by decide))).trans (W_main_arg12 m (dats m) c)),
    ((h c).1 10).trans ((((dats m) 0 c).arrAt_in 10 rfl _).trans ((A_eq m c 10).trans (V_main_arg13 m c)))⟩

end Cert.KernelIdeal.Blocks

end
-- ==== Proof.KernelRows.lean ====
/-
  The kernel body's two stored values, read at an entry (p, q) of the 1000 x 128 block.

  Every operation of the body is read at an index. A matrix product accumulated into zero is the sum over the contracted
  coordinate; the three dimension records of the body are the plain "M x K by K x N" one, so one lemma serves them all.
  A bias vector cast to one row and broadcast down the block reads the vector at the column. Three 128-wide blocks
  joined along the columns read, in row p, the three rows laid end to end. A cut of a 384-wide block at column offset o
  reads column o + q. Everything else (sums, products, differences, maxima, the logistic and the hyperbolic tangent, a
  change of format) acts entry by entry. Put together: an affine layer of the body at (p, j) is the affine map of row p,
  the message payload is the two-layer network of the joined row, and the new-memory payload is the GRU cell of the two
  gate pre-activations of that row.
-/
import proofs.«139267_j34033320854152_1_alg».proof.Proof.Gen.KernelIdeal.Skeleton
import proofs.«139267_j34033320854152_1_alg».proof.Proof.GruRow
import Idealize.ShloMosaic.Lib.ValueIdx
import Idealize.ShloMosaic.Lib.ValueLayout
import Idealize.ShloMosaic.Lib.Pipeline.Value
import Idealize.ShloMosaic.PureOps.Ideal.Laws
noncomputable section
open scoped BigOperators
namespace Cert.KernelIdeal.Rows
open Idealize.ShloMosaic Idealize.ShloMosaic.ValueIdx Cert.KernelIdeal Cert.KernelIdeal.Gen Cert.GruRow

/-! ## A plain matrix product read at an index -/

/-- In a plain product the left operand is read at the result's row … -/
theorem plain_lhs_0 {M K N : ℕ} (i : (⟨2, ![M, N]⟩ : Shape).Idx) (c : (DotDims.plain M K N).contr.Idx) :
    ((DotDims.plain M K N).lhsIdx i c 0).val = (i 0).val := rfl
/-- … and at the contracted coordinate; -/
theorem plain_lhs_1 {M K N : ℕ} (i : (⟨2, ![M, N]⟩ : Shape).Idx) (c : (DotDims.plain M K N).contr.Idx) :
    ((DotDims.plain M K N).lhsIdx i c 1).val = (c ⟨0, Nat.one_pos⟩).val := rfl
/-- the right operand at the contracted coordinate … -/
theorem plain_rhs_0 {M K N : ℕ} (i : (⟨2, ![M, N]⟩ : Shape).Idx) (c : (DotDims.plain M K N).contr.Idx) :
    ((DotDims.plain M K N).rhsIdx i c 0).val = (c ⟨0, Nat.one_pos⟩).val := rfl
/-- … and at the result's column. -/
theorem plain_rhs_1 {M K N : ℕ} (i : (⟨2, ![M, N]⟩ : Shape).Idx) (c : (DotDims.plain M K N).contr.Idx) :
    ((DotDims.plain M K N).rhsIdx i c 1).val = (i 1).val := rfl

/-- A plain `M x K` by `K x N` product accumulated into zero is, at `(p, j)`, `∑ k, L (p, k) * R (k, j)`. -/
theorem matmul_plain_zero_apply {M K N : ℕ} {φ₁ φ₂ : FTy}
    (L : FVec Ideal ⟨2, ![M, K]⟩ φ₁) (R : FVec Ideal ⟨2, ![K, N]⟩ φ₂) (p : Fin M) (j : Fin N) :
    matmul (F := Ideal) (DotDims.plain M K N) none L R (constant (F := Ideal) ⟨2, ![M, N]⟩ .f32 0x00000000#32) (ix2 p j)
      = ∑ k : Fin K, L (ix2 p k) * R (ix2 k j) := by
  refine (Ideal.matmul_constant_zero_apply (DotDims.plain M K N) none L R (ix2 p j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- The body's three dimension records are plain products: 384 contracted into 128 columns … -/
theorem dot_384_128_eq : dot_S1000x384_S384x128_S1000x128_1_0_0_1_n_n = DotDims.plain 1000 384 128 := rfl
/-- … 128 into 128 … -/
theorem dot_128_128_eq : dot_S1000x128_S128x128_S1000x128_1_0_0_1_n_n = DotDims.plain 1000 128 128 := rfl
/-- … and 128 into 384. -/
theorem dot_128_384_eq : dot_S1000x128_S128x384_S1000x384_1_0_0_1_n_n = DotDims.plain 1000 128 384 := rfl

/-! ## The layout operations of the body read at an index -/

/-- A vector cast to one row and broadcast down `R` rows reads, at `(p, j)`, the vector at `j`. -/
theorem biasRow_apply {R C : ℕ} (b : (⟨1, ![C]⟩ : Shape).Idx → EReal)
    (h : (⟨1, ![C]⟩ : Shape).ShapeCasts ⟨2, ![1, C]⟩) (h' : (⟨2, ![1, C]⟩ : Shape).Broadcasts ⟨2, ![R, C]⟩)
    (p : Fin R) (j : Fin C) :
    broadcastTo ⟨2, ![R, C]⟩ (shapeCast ⟨2, ![1, C]⟩ b h) h' (ix2 p j) = b (ix1 j) :=
  (broadcastTo_1b_ab_apply _ h' p j).trans (shapeCast_a_1a_apply b h 0 j)

/-- Three 128-wide blocks joined along the columns read, at `(p, k)`, entry `k` of the three rows `p` laid end to end. -/
theorem concat3_apply {R : ℕ} (a b c : (⟨2, ![R, 128]⟩ : Shape).Idx → EReal)
    (h : Shape.Concatenates [(⟨2, ![R, 128]⟩ : Shape), ⟨2, ![R, 128]⟩, ⟨2, ![R, 128]⟩] ⟨2, ![R, 384]⟩ 1)
    (p : Fin R) (k : Fin 384) :
    concatenate ⟨2, ![R, 384]⟩ 1 [⟨⟨2, ![R, 128]⟩, a⟩, ⟨⟨2, ![R, 128]⟩, b⟩, ⟨⟨2, ![R, 128]⟩, c⟩] h (ix2 p k)
      = cat3 (row a p) (row b p) (row c p) k := by
  unfold cat3
  by_cases h0 : k.val < 128
  · rw [dif_pos h0]
    exact concatenate_apply_piece (t := ⟨2, ![R, 384]⟩) 1 [⟨⟨2, ![R, 128]⟩, a⟩, ⟨⟨2, ![R, 128]⟩, b⟩, ⟨⟨2, ![R, 128]⟩, c⟩] h (ix2 p k) 0 (by show (0 : ℕ) < 3; decide) ⟨2, ![R, 128]⟩ a rfl rfl 0 rfl
      (ix2 p ⟨k.val, h0⟩)
      (fun d hd => by
        match d with
        | ⟨0, _⟩ => rfl
        | ⟨1, _⟩ => exact absurd rfl hd)
      (Nat.zero_add _)
  · rw [dif_neg h0]
    by_cases h1 : k.val < 256
    · rw [dif_pos h1]
      exact concatenate_apply_piece (t := ⟨2, ![R, 384]⟩) 1 [⟨⟨2, ![R, 128]⟩, a⟩, ⟨⟨2, ![R, 128]⟩, b⟩, ⟨⟨2, ![R, 128]⟩, c⟩] h (ix2 p k) 1 (by show (1 : ℕ) < 3; decide) ⟨2, ![R, 128]⟩ b rfl rfl 128 rfl
        (ix2 p ⟨k.val - 128, by omega⟩)
        (fun d hd => by
          match d with
          | ⟨0, _⟩ => rfl
          | ⟨1, _⟩ => exact absurd rfl hd)
        (by show 128 + (k.val - 128) = k.val; omega)
    · rw [dif_neg h1]
      exact concatenate_apply_piece (t := ⟨2, ![R, 384]⟩) 1 [⟨⟨2, ![R, 128]⟩, a⟩, ⟨⟨2, ![R, 128]⟩, b⟩, ⟨⟨2, ![R, 128]⟩, c⟩] h (ix2 p k) 2 (by show (2 : ℕ) < 3; decide) ⟨2, ![R, 128]⟩ c rfl rfl 256 rfl
        (ix2 p ⟨k.val - 256, by have := k.isLt; omega⟩)
        (fun d hd => by
          match d with
          | ⟨0, _⟩ => rfl
          | ⟨1, _⟩ => exact absurd rfl hd)
        (by show 256 + (k.val - 256) = k.val; omega)

/-- The logistic function of a block acts entry by entry … -/
theorem logistic_apply {s : Shape} {φ : FTy} (v : FVec Ideal s φ) (i : s.Idx) : logistic v i = Ideal.logistic (v i) := rfl
/-- … and so does the hyperbolic tangent. -/
theorem tanh_apply {s : Shape} {φ : FTy} (v : FVec Ideal s φ) (i : s.Idx) : tanh v i = Ideal.tanh (v i) := rfl

/-! ## An affine layer of the body -/

/-- A plain product accumulated into zero plus the bias row broadcast down the block, read at `(p, j)`: the affine map of
    row `p` of the left operand (`x`, whatever the proof knows that row to be; `w`: what the weight operand is). -/
theorem affineBlock_apply {R K C : ℕ} {φ₁ φ₂ : FTy}
    (D : DotDims ⟨2, ![R, K]⟩ ⟨2, ![K, C]⟩ ⟨2, ![R, C]⟩) (hD : D = DotDims.plain R K C)
    (X : FVec Ideal ⟨2, ![R, K]⟩ φ₁) (W : FVec Ideal ⟨2, ![K, C]⟩ φ₂) (b : (⟨1, ![C]⟩ : Shape).Idx → EReal)
    (h : (⟨1, ![C]⟩ : Shape).ShapeCasts ⟨2, ![1, C]⟩) (h' : (⟨2, ![1, C]⟩ : Shape).Broadcasts ⟨2, ![R, C]⟩)
    (p : Fin R) (x : Fin K → EReal) (hx : ∀ k, X (ix2 p k) = x k)
    (w : (⟨2, ![K, C]⟩ : Shape).Idx → EReal) (hw : W = w) (j : Fin C) :
    addf (matmul (F := Ideal) D none X W (constant (F := Ideal) ⟨2, ![R, C]⟩ .f32 0x00000000#32))
        (broadcastTo ⟨2, ![R, C]⟩ (shapeCast ⟨2, ![1, C]⟩ b h) h') (ix2 p j)
      = affine x w b j := by
  subst hD
  subst hw
  unfold affine
  refine (addf_apply _ _ _).trans (congrArg₂ (· + ·) ?_ ?_)
  · refine (matmul_plain_zero_apply X W p j).trans (Finset.sum_congr rfl fun k _ => ?_)
    exact congrArg (· * W (ix2 k j)) (hx k)
  · exact biasRow_apply b h h' p j

/-! ## The message payload -/

/-- The recast of the memory block to its own shape is the block. -/
theorem pay2_eq (x : Vec Ideal S1000x128 .f32) : k0_pay2 (F := Ideal) x = x := shapeCast_self x _

/-- The joined input block, read in row `p`: node features, the memory row, edge features, end to end. -/
theorem joined_apply (x0 x1 x2 : Vec Ideal S1000x128 .f32)
    (h : Shape.Concatenates [S1000x128, S1000x128, S1000x128] S1000x384 1) (hb : FTy.bits .bf16 < FTy.bits .f32)
    (p : Fin 1000) (k : Fin 384) :
    truncf .bf16 (concatenate S1000x384 1 [⟨S1000x128, x0⟩, ⟨S1000x128, k0_pay2 (F := Ideal) x1⟩, ⟨S1000x128, x2⟩] h) hb (ix2 p k)
      = cat3 (row x0 p) (row x1 p) (row x2 p) k := by
  rw [pay2_eq]
  exact (truncf_apply (ψ := .bf16) _ hb _).trans (concat3_apply x0 x1 x2 h p k)

/-- the message payload at row p, column q of the block -/
theorem messages_apply (x0 x1 x2 : Vec Ideal S1000x128 .f32) (x3 : Vec Ideal S384x128 .bf16) (x4 : Vec Ideal S128 .f32)
    (x5 : Vec Ideal S128x128 .bf16) (x6 : Vec Ideal S128 .f32) (p : Fin 1000) (q : Fin 128) :
    k0_pay3 (F := Ideal) x0 x1 x2 x3 x4 x5 x6 (ix2 p q)
      = message (cat3 (row x0 p) (row x1 p) (row x2 p)) x3 x4 x5 x6 q := by
  unfold k0_pay3 message
  refine affineBlock_apply _ dot_128_128_eq _ _ x6 _ _ p _ (fun k => ?_) x5 (shapeCast_self x5 _) q
  -- the hidden layer: the first affine layer, then the maximum with zero
  refine (truncf_apply (ψ := .bf16) _ bitsLt_bf16_f32 _).trans ((maximumf_apply _ _ _).trans ?_)
  unfold Cert.GruRow.hidden
  refine congrArg₂ max ?_ rfl
  exact affineBlock_apply _ dot_384_128_eq _ _ x4 _ _ p _ (fun k' => joined_apply x0 x1 x2 _ _ p k') x3
    (shapeCast_self x3 _) k

/-! ## The new-memory payload -/

/-- The input gates' pre-activation: the affine map of the row's message. -/
theorem gatesIn_apply (x0 x1 x2 : Vec Ideal S1000x128 .f32) (x3 : Vec Ideal S384x128 .bf16) (x4 : Vec Ideal S128 .f32)
    (x5 : Vec Ideal S128x128 .bf16) (x6 : Vec Ideal S128 .f32) (x7 : Vec Ideal S128x384 .bf16) (x8 : Vec Ideal S384 .f32)
    (p : Fin 1000) (j : Fin 384) :
    k0_pay4 (F := Ideal) x0 x1 x2 x3 x4 x5 x6 x7 x8 (ix2 p j)
      = affine (message (cat3 (row x0 p) (row x1 p) (row x2 p)) x3 x4 x5 x6) x7 x8 j := by
  unfold k0_pay4
  exact affineBlock_apply _ dot_128_384_eq _ _ x8 _ _ p _
    (fun k => (truncf_apply (ψ := .bf16) _ bitsLt_bf16_f32 _).trans (messages_apply x0 x1 x2 x3 x4 x5 x6 p k)) x7 (shapeCast_self x7 _) j

/-- The hidden gates' product, before its bias: row `p` of the memory block against the hidden weights. -/
theorem gatesHid_apply (x1 : Vec Ideal S1000x128 .f32) (x9 : Vec Ideal S128x384 .bf16) (p : Fin 1000) (j : Fin 384) :
    k0_pay5 (F := Ideal) x1 x9 (ix2 p j) = ∑ k : Fin 128, row x1 p k * x9 (ix2 k j) := by
  unfold k0_pay5
  rw [dot_128_384_eq]
  refine (matmul_plain_zero_apply _ _ p j).trans (Finset.sum_congr rfl fun k _ => ?_)
  exact congrArg₂ (· * ·) ((truncf_apply (ψ := .bf16) _ bitsLt_bf16_f32 _).trans (congrFun (pay2_eq x1) (ix2 p k)))
    (congrFun (shapeCast_self x9 _) (ix2 k j))

/-- The cell's arithmetic on a block, read at `(p, q)`: the GRU cell of row `p` of the two pre-activations (the hidden
    one with its bias row added) and of the old memory row. -/
theorem gruBlock_apply (h0 : FVec Ideal S1000x128 .f32) (gi ghm : FVec Ideal S1000x384 .f32) (bhh : Vec Ideal S384 .f32)
    (p : Fin 1000) (q : Fin 128) :
    k0_pay1 (F := Ideal) h0 gi ghm bhh (ix2 p q)
      = gru (fun j => gi (ix2 p j)) (fun j => ghm (ix2 p j) + bhh (ix1 j)) (fun k => h0 (ix2 p k)) q := by
  -- a cut of a 384-wide block at column offset 0, 128, 256 reads that third of row `p`
  have s0 : ∀ V : FVec Ideal S1000x384 .f32,
      extractStridedSlice S1000x128 ![0, 0] V slices_S1000x384_o0_0_S1000x128 (ix2 p q)
        = V (ix2 p (third 0 (by decide) q)) := fun V => slice2_axis1_apply 0 V _ p q _ rfl
  have s1 : ∀ V : FVec Ideal S1000x384 .f32,
      extractStridedSlice S1000x128 ![0, 128] V slices_S1000x384_o0_128_S1000x128 (ix2 p q)
        = V (ix2 p (third 128 (by decide) q)) := fun V => slice2_axis1_apply 128 V _ p q _ rfl
  have s2 : ∀ V : FVec Ideal S1000x384 .f32,
      extractStridedSlice S1000x128 ![0, 256] V slices_S1000x384_o0_256_S1000x128 (ix2 p q)
        = V (ix2 p (third 256 (by decide) q)) := fun V => slice2_axis1_apply 256 V _ p q _ rfl
  -- the hidden pre-activation with its bias row, read at a column
  have gb : ∀ j : Fin 384,
      addf ghm (broadcastTo S1000x384 (shapeCast S1x384 bhh shapeCasts_S384_S1x384) broadcasts_S1x384_S1000x384) (ix2 p j)
        = ghm (ix2 p j) + bhh (ix1 j) := fun j =>
    (addf_apply _ _ _).trans (congrArg (ghm (ix2 p j) + ·) (biasRow_apply bhh _ _ p j))
  have a0 := s0 gi
  have a1 := s1 gi
  have a2 := s2 gi
  have b0 := (s0 _).trans (gb (third 0 (by decide) q))
  have b1 := (s1 _).trans (gb (third 128 (by decide) q))
  have b2 := (s2 _).trans (gb (third 256 (by decide) q))
  unfold k0_pay1 gru
  exact congrArg₂ (· + ·)
    (congrArg₂ (· * ·)
      (congrArg (oneW - Ideal.logistic ·) (congrArg₂ (· + ·) a1 b1))
      (congrArg Ideal.tanh
        (congrArg₂ (· + ·) a2 (congrArg₂ (· * ·) (congrArg Ideal.logistic (congrArg₂ (· + ·) a0 b0)) b2))))
    (congrArg (· * h0 (ix2 p q)) (congrArg Ideal.logistic (congrArg₂ (· + ·) a1 b1)))

/-- the new-memory payload at row p, column q of the block -/
theorem updated_apply (x0 x1 x2 : Vec Ideal S1000x128 .f32) (x3 : Vec Ideal S384x128 .bf16) (x4 : Vec Ideal S128 .f32)
    (x5 : Vec Ideal S128x128 .bf16) (x6 : Vec Ideal S128 .f32) (x7 : Vec Ideal S128x384 .bf16) (x8 : Vec Ideal S384 .f32)
    (x9 : Vec Ideal S128x384 .bf16) (x10 : Vec Ideal S384 .f32) (p : Fin 1000) (q : Fin 128) :
    k0_pay1 (F := Ideal) (k0_pay2 x1) (k0_pay4 x0 x1 x2 x3 x4 x5 x6 x7 x8) (k0_pay5 x1 x9) x10 (ix2 p q)
      = updated (cat3 (row x0 p) (row x1 p) (row x2 p)) (row x1 p) x3 x4 x5 x6 x7 x8 x9 x10 q := by
  refine (gruBlock_apply (k0_pay2 x1) (k0_pay4 x0 x1 x2 x3 x4 x5 x6 x7 x8) (k0_pay5 x1 x9) x10 p q).trans ?_
  have e1 : (fun j : Fin 384 => k0_pay4 (F := Ideal) x0 x1 x2 x3 x4 x5 x6 x7 x8 (ix2 p j))
      = affine (message (cat3 (row x0 p) (row x1 p) (row x2 p)) x3 x4 x5 x6) x7 x8 :=
    funext fun j => gatesIn_apply x0 x1 x2 x3 x4 x5 x6 x7 x8 p j
  have e2 : (fun j : Fin 384 => k0_pay5 (F := Ideal) x1 x9 (ix2 p j) + x10 (ix1 j)) = affine (row x1 p) x9 x10 :=
    funext fun j => congrArg (· + x10 (ix1 j)) (gatesHid_apply x1 x9 p j)
  have e3 : (fun k : Fin 128 => k0_pay2 (F := Ideal) x1 (ix2 p k)) = row x1 p :=
    funext fun k => congrFun (pay2_eq x1) (ix2 p k)
  unfold updated
  exact congrFun (congr (congr (congrArg gru e1) e2) e3) q

end Cert.KernelIdeal.Rows

end
-- ==== Proof.KernelValue.lean ====
/-
  From blocks to arrays, and the kernel program's run read as values.

  Grid point `t` writes back, for each of the two results, the 1000 x 128 block whose row `p` is the body's payload of
  row `p` of the three row operands' blocks; those are rows `1000 t + p` of the node features, the gathered memory rows
  and the edge features, and the weights are whole at every point. So block `t` of each result is block `t` of ONE
  whole-batch function of the arrays (the specification's `messagesOf`, `updatedOf`); the 100 blocks tile the 100000
  rows (row `i` lies in block `i / 1000`), hence each result array ends holding that function. The host lines after the
  region scatter them into the tables.
-/
import proofs.«139267_j34033320854152_1_alg».proof.Proof.KernelBlocks
import proofs.«139267_j34033320854152_1_alg».proof.Proof.KernelRows
import proofs.«139267_j34033320854152_1_alg».proof.Proof.GruRow
import Idealize.ShloMosaic.Lib.Pipeline.Value

set_option maxRecDepth 16384

noncomputable section

namespace Cert.KernelIdeal.Arrays

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen Cert.KernelIdeal.Blocks Cert.KernelIdeal.Rows Cert.GruRow
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-- The messages of the whole batch, from the arrays as the region finds them. -/
def msgs (c : Dev nD) : S100000x128.Idx → EReal :=
  messagesOf (R := 100000) (V m c main_arg1 : S100000x128.Idx → Elt Ideal .f32) (V m c main_v6 : S100000x128.Idx → Elt Ideal .f32) (V m c main_arg2 : S100000x128.Idx → Elt Ideal .f32)
    (V m c main_v8 : S384x128.Idx → Elt Ideal .bf16) (V m c main_arg7 : S128.Idx → Elt Ideal .f32) (V m c main_v10 : S128x128.Idx → Elt Ideal .bf16) (V m c main_arg9 : S128.Idx → Elt Ideal .f32)

/-- The new memory rows of the whole batch, from the arrays as the region finds them. -/
def upds (c : Dev nD) : S100000x128.Idx → EReal :=
  updatedOf (R := 100000) (V m c main_arg1 : S100000x128.Idx → Elt Ideal .f32) (V m c main_v6 : S100000x128.Idx → Elt Ideal .f32) (V m c main_arg2 : S100000x128.Idx → Elt Ideal .f32)
    (V m c main_v8 : S384x128.Idx → Elt Ideal .bf16) (V m c main_arg7 : S128.Idx → Elt Ideal .f32) (V m c main_v10 : S128x128.Idx → Elt Ideal .bf16) (V m c main_arg9 : S128.Idx → Elt Ideal .f32)
    (V m c main_v12 : S128x384.Idx → Elt Ideal .bf16) (V m c main_arg11 : S384.Idx → Elt Ideal .f32) (V m c main_v14 : S128x384.Idx → Elt Ideal .bf16) (V m c main_arg13 : S384.Idx → Elt Ideal .f32)

/-- The row of the batch that row `p` of block `t` is. -/
abbrev rowAt (t : Fin cfg0.N) (p : Fin 1000) : Fin 100000 := ⟨1000 * t.val + p.val, by have := point_lt t; omega⟩

/-- Where entry `(p, q)` of block `t` of a result sits in the result's array. -/
theorem emb11 (t : Fin cfg0.N) (p : Fin 1000) (q : Fin 128) :
    ((cfg0.win 11).blk t).view.emb (ix2 p q) = (ix2 (rowAt t p) q : S100000x128.Idx) := by
  obtain ⟨-, -, -, -, -, -, h0, h1, -⟩ := idx_rows t
  funext a
  apply Fin.ext
  match a with
  | ⟨0, _⟩ => show win0_11.index t 0 * 1000 + 1 * p.val = 1000 * t.val + p.val; rw [h0]; omega
  | ⟨1, _⟩ => show win0_11.index t 1 * 128 + 1 * q.val = q.val; rw [h1]; omega
theorem emb12 (t : Fin cfg0.N) (p : Fin 1000) (q : Fin 128) :
    ((cfg0.win 12).blk t).view.emb (ix2 p q) = (ix2 (rowAt t p) q : S100000x128.Idx) := by
  obtain ⟨-, -, -, -, -, -, -, -, h0, h1⟩ := idx_rows t
  funext a
  apply Fin.ext
  match a with
  | ⟨0, _⟩ => show win0_12.index t 0 * 1000 + 1 * p.val = 1000 * t.val + p.val; rw [h0]; omega
  | ⟨1, _⟩ => show win0_12.index t 1 * 128 + 1 * q.val = q.val; rw [h1]; omega

/-- Row `p` of each row operand's block at point `t` is row `1000 t + p` of its array. -/
theorem row0 (c : Dev nD) (t : Fin cfg0.N) (p : Fin 1000) :
    row (iblk m c 0 t : Vec Ideal S1000x128 .f32) p = row (V m c main_arg1 : S100000x128.Idx → Elt Ideal .f32) (rowAt t p) :=
  funext fun k => iblk0_apply m c t p k (rowAt t p) rfl
theorem row1 (c : Dev nD) (t : Fin cfg0.N) (p : Fin 1000) :
    row (iblk m c 1 t : Vec Ideal S1000x128 .f32) p = row (V m c main_v6 : S100000x128.Idx → Elt Ideal .f32) (rowAt t p) :=
  funext fun k => iblk1_apply m c t p k (rowAt t p) rfl
theorem row2 (c : Dev nD) (t : Fin cfg0.N) (p : Fin 1000) :
    row (iblk m c 2 t : Vec Ideal S1000x128 .f32) p = row (V m c main_arg2 : S100000x128.Idx → Elt Ideal .f32) (rowAt t p) :=
  funext fun k => iblk2_apply m c t p k (rowAt t p) rfl

/-- What point `t` writes back of the messages is block `t` of the whole batch's messages. -/
theorem flushed11_eq (c : Dev nD) (t : Fin cfg0.N) :
    (dats m 0 c).flushed 11 t = ((cfg0.win 11).blk t).view.read (Elt Ideal) (msgs m c) := by
  show (cfg0.win 11).cut (grid0.coords t) ((dats m 0 c).after 11 t) = _
  rw [after0_11]
  unfold out0_11
  rw [View.canon_unit_zero hz]
  simp only [View.ld_unit_zero (S := S1000x128) hz, View.ld_unit_zero (S := S384x128) hz, View.ld_unit_zero (S := S128x128) hz,
    View.ld_unit_zero (S := S128) hz1]
  funext j
  obtain ⟨p, q, rfl⟩ : ∃ (p : Fin 1000) (q : Fin 128), j = ix2 p q := ⟨j 0, j 1, eq_ix2 j⟩
  rw [View.read_apply, emb11 t p q]
  refine (messages_apply (iblk m c 0 t) (iblk m c 1 t) (iblk m c 2 t) (iblk m c 3 t) (iblk m c 4 t) (iblk m c 5 t) (iblk m c 6 t) p q).trans ?_
  rw [row0 m c t p, row1 m c t p, row2 m c t p, iblk3_eq m c t, iblk4_eq m c t, iblk5_eq m c t, iblk6_eq m c t]
  rfl

/-- What point `t` writes back of the new memory rows is block `t` of the whole batch's. -/
theorem flushed12_eq (c : Dev nD) (t : Fin cfg0.N) :
    (dats m 0 c).flushed 12 t = ((cfg0.win 12).blk t).view.read (Elt Ideal) (upds m c) := by
  show (cfg0.win 12).cut (grid0.coords t) ((dats m 0 c).after 12 t) = _
  rw [after0_12]
  unfold out0_12
  rw [View.canon_unit_zero hz]
  simp only [View.ld_unit_zero (S := S1000x128) hz, View.ld_unit_zero (S := S384x128) hz, View.ld_unit_zero (S := S128x128) hz,
    View.ld_unit_zero (S := S128x384) hz, View.ld_unit_zero (S := S128) hz1, View.ld_unit_zero (S := S384) hz1]
  funext j
  obtain ⟨p, q, rfl⟩ : ∃ (p : Fin 1000) (q : Fin 128), j = ix2 p q := ⟨j 0, j 1, eq_ix2 j⟩
  rw [View.read_apply, emb12 t p q]
  refine (updated_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q).trans ?_
  rw [row0 m c t p, row1 m c t p, row2 m c t p, iblk3_eq m c t, iblk4_eq m c t, iblk5_eq m c t, iblk6_eq m c t,
    iblk7_eq m c t, iblk8_eq m c t, iblk9_eq m c t, iblk10_eq m c t]
  rfl

/-- Every row of the batch lies in the block of the point `row / 1000`. -/
theorem cover11 (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  have hN : cfg0.N = 100 := N_0
  obtain ⟨t, ht⟩ : ∃ t : Fin cfg0.N, t.val = (i 0).val / 1000 := ⟨⟨(i 0).val / 1000, by rw [hN]; omega⟩, rfl⟩
  refine ⟨t, flush0_11 t, ?_⟩
  obtain ⟨-, -, -, -, -, -, h0, h1, -⟩ := idx_rows t
  show i ∈ ((View.whole main_v15_0).slice (win0_11.rect t)).set
  rw [View.set_slice_whole, Rect.mem_set_unit]
  intro a
  match a with
  | ⟨0, _⟩ => show win0_11.index t 0 * 1000 ≤ (i 0).val ∧ (i 0).val < win0_11.index t 0 * 1000 + 1000; rw [h0, ht]; omega
  | ⟨1, _⟩ => show win0_11.index t 1 * 128 ≤ (i 1).val ∧ (i 1).val < win0_11.index t 1 * 128 + 128; rw [h1]; omega
theorem cover12 (i : S100000x128.Idx) : ∃ t : Fin cfg0.N, (cfg0.win 12).flush t = true ∧ i ∈ ((cfg0.win 12).blk t).view.set := by
  have hi0 : (i 0).val < 100000 := (i 0).isLt
  have hi1 : (i 1).val < 128 := (i 1).isLt
  have hN : cfg0.N = 100 := N_0
  obtain ⟨t, ht⟩ : ∃ t : Fin cfg0.N, t.val = (i 0).val / 1000 := ⟨⟨(i 0).val / 1000, by rw [hN]; omega⟩, rfl⟩
  refine ⟨t, flush0_12 t, ?_⟩
  obtain ⟨-, -, -, -, -, -, -, -, h0, h1⟩ := idx_rows t
  show i ∈ ((View.whole main_v15_1).slice (win0_12.rect t)).set
  rw [View.set_slice_whole, Rect.mem_set_unit]
  intro a
  match a with
  | ⟨0, _⟩ => show win0_12.index t 0 * 1000 ≤ (i 0).val ∧ (i 0).val < win0_12.index t 0 * 1000 + 1000; rw [h0, ht]; omega
  | ⟨1, _⟩ => show win0_12.index t 1 * 128 ≤ (i 1).val ∧ (i 1).val < win0_12.index t 1 * 128 + 128; rw [h1]; omega

/-- The two result arrays after the region. -/
theorem final11 (c : Dev nD) : (dats m 0 c).arrAt 11 cfg0.N = msgs m c :=
  (dats m 0 c).arrAt_eq_of_cover 11 (msgs m c) (fun t _ => flushed11_eq m c t) cover11
theorem final12 (c : Dev nD) : (dats m 0 c).arrAt 12 cfg0.N = upds m c :=
  (dats m 0 c).arrAt_eq_of_cover 12 (upds m c) (fun t _ => flushed12_eq m c t) cover12

/-! ## The same two arrays as functions of the program's arguments -/

/-- The messages of the whole batch from the arguments: the memory rows gathered at the wrapped node indices, every
    weight matrix transposed (the narrower float format the kernel stores them in is the same extended real). -/
def msgsOfArgs (c : Dev nD) : S100000x128.Idx → EReal :=
  messagesOf (R := 100000) (m ((c : Thread nD τ).loc main_arg1)) (Host.gather gather_S500000x128_S100000x1_S100000x128_1_0_n_n_0_1_1128 (m ((c : Thread nD τ).loc main_arg4)) (wrapped (m ((c : Thread nD τ).loc main_arg0)))) (m ((c : Thread nD τ).loc main_arg2))
    (transpose S384x128 [1, 0] (m ((c : Thread nD τ).loc main_arg6)) transposes_S128x384_S384x128_1_0) (m ((c : Thread nD τ).loc main_arg7)) (transpose S128x128 [1, 0] (m ((c : Thread nD τ).loc main_arg8)) transposes_S128x128_S128x128_1_0) (m ((c : Thread nD τ).loc main_arg9))

/-- The new memory rows of the whole batch from the arguments. -/
def updsOfArgs (c : Dev nD) : S100000x128.Idx → EReal :=
  updatedOf (R := 100000) (m ((c : Thread nD τ).loc main_arg1)) (Host.gather gather_S500000x128_S100000x1_S100000x128_1_0_n_n_0_1_1128 (m ((c : Thread nD τ).loc main_arg4)) (wrapped (m ((c : Thread nD τ).loc main_arg0)))) (m ((c : Thread nD τ).loc main_arg2))
    (transpose S384x128 [1, 0] (m ((c : Thread nD τ).loc main_arg6)) transposes_S128x384_S384x128_1_0) (m ((c : Thread nD τ).loc main_arg7)) (transpose S128x128 [1, 0] (m ((c : Thread nD τ).loc main_arg8)) transposes_S128x128_S128x128_1_0) (m ((c : Thread nD τ).loc main_arg9))
    (transpose S128x384 [1, 0] (m ((c : Thread nD τ).loc main_arg10)) transposes_S384x128_S128x384_1_0) (m ((c : Thread nD τ).loc main_arg11)) (transpose S128x384 [1, 0] (m ((c : Thread nD τ).loc main_arg12)) transposes_S384x128_S128x384_1_0) (m ((c : Thread nD τ).loc main_arg13))

theorem msgs_eq (c : Dev nD) : msgs m c = msgsOfArgs m c := by
  unfold msgs msgsOfArgs
  rw [V_main_arg1 m c, V_v6 m c, V_main_arg2 m c, V_v8 m c, V_main_arg7 m c, V_v10 m c, V_main_arg9 m c]
  rfl

theorem upds_eq (c : Dev nD) : upds m c = updsOfArgs m c := by
  unfold upds updsOfArgs
  rw [V_main_arg1 m c, V_v6 m c, V_main_arg2 m c, V_v8 m c, V_main_arg7 m c, V_v10 m c, V_main_arg9 m c,
    V_v12 m c, V_main_arg11 m c, V_v14 m c, V_main_arg13 m c]
  rfl

/-! ## The run, read -/

/-- Every execution of the kernel's program ends with the new memory table, the new last-update vector and the new
    message table at the scatters of the whole batch's new memory rows, the timestamps and the whole batch's messages,
    and with its arguments as launched. -/
theorem run : θ_run defs (onTc (τ := τ) (main (F := Ideal))) ⟨m, fun _ => 0, ρ⟩ fun r => ∀ c : Dev nD,
      r.2.mem ((c.tc : Thread nD τ).loc main_v22)
        = Host.scatter scatter_S500000x128_S100000x1_S100000x128_1_0_0_1 (fun _ b => b) (m ((c : Thread nD τ).loc main_arg4)) (wrapped (m ((c : Thread nD τ).loc main_arg0))) (updsOfArgs m c)
      ∧ r.2.mem ((c.tc : Thread nD τ).loc main_v29)
        = Host.scatter scatter_S500000_S100000x1_S100000_n_0_0_1 (fun _ b => b) (m ((c : Thread nD τ).loc main_arg5)) (wrapped (m ((c : Thread nD τ).loc main_arg0))) (m ((c : Thread nD τ).loc main_arg3))
      ∧ r.2.mem ((c.tc : Thread nD τ).loc main_v37)
        = Host.scatter scatter_S500000x128_S100000x1_S100000x128_1_0_0_1 (fun _ b => b)
            (broadcastInDim S500000x128 ![] bcast_S_S500000x128 (constant (F := Ideal) S_ .f32 0x00000000#32)) (wrapped (m ((c : Thread nD τ).loc main_arg0))) (msgsOfArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
    ⟨((h c).2 main_v22 (Pipeline.mem_restRefs_of main_v22 (by decide) (by decide))).trans
        ((tail_v22 m c).trans (by rw [final12 m c, upds_eq m c])),
      ((h c).2 main_v29 (Pipeline.mem_restRefs_of main_v29 (by decide) (by decide))).trans (tail_v29 m c),
      ((h c).2 main_v37 (Pipeline.mem_restRefs_of main_v37 (by decide) (by decide))).trans
        ((tail_v37 m c).trans (by rw [final11 m c, msgs_eq m c])),
      args_kept m r h c⟩)
    (run_main m ρ)

end Cert.KernelIdeal.Arrays

end
-- ==== Proof.ReferenceRows.lean ====
/-
  The reference's two intermediate arrays, row by row.

  Reading each operation of the reference at an index `(a, q)` of the batch: the joined row is the three 128-vectors of
  row `a` laid end to end; a contraction against a transposed weight followed by a bias repeated down the rows is an
  affine layer of that row; the maximum with the word of 0.0 is the relu; the six column slices at offsets 0, 128, 256
  are the reset, update and candidate thirds of the two pre-activations; and `1 / (1 + exp (-x))`, with the word of 1.0
  being the extended real one, is the logistic. So the messages (%18) are `messagesOf` and the new memory rows (%56)
  are `updatedOf` of the same inputs, as whole-batch functions.
-/
import proofs.«139267_j34033320854152_1_alg».proof.Proof.Gen.ReferenceIdeal.Read
import proofs.«139267_j34033320854152_1_alg».proof.Proof.GruRow
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
noncomputable section
open scoped BigOperators
namespace Cert.ReferenceIdeal.Rows
open Idealize.ShloMosaic Idealize.ShloMosaic.ValueIdx Cert.ReferenceIdeal Cert.ReferenceIdeal.Gen Cert.ReferenceIdeal.Read Cert.GruRow

/-- The joined row read at an entry: the three 128-wide rows laid end to end. -/
theorem v7_at (x0 : (⟨S100000, .i32⟩ : BufTy).Contents (Elt Ideal)) (x1 x2 : (⟨S100000x128, .f32⟩ : BufTy).Contents (Elt Ideal))
    (x4 : (⟨S500000x128, .f32⟩ : BufTy).Contents (Elt Ideal)) (a : Fin 100000) (k : Fin 384) :
    val_main_v7 (F := Ideal) x0 x1 x2 x4 (ix2 a k)
      = cat3 (row x1 a) (row (val_main_v6 (F := Ideal) x0 x4) a) (row x2 a) k := by
  unfold val_main_v7 cat3 row
  generalize val_main_v6 (F := Ideal) x0 x4 = y
  by_cases h : k.val < 128
  · rw [dif_pos h]
    refine concatenate_apply_piece (1 : Fin 2) [⟨S100000x128, x1⟩, ⟨S100000x128, y⟩, ⟨S100000x128, x2⟩] _ (ix2 a k) 0 ?_ S100000x128 x1 rfl rfl 0 rfl (ix2 a ⟨k.val, h⟩) ?_ ?_
    · simp
    · intro b hb
      match b with
      | ⟨0, _⟩ => rfl
      | ⟨1, _⟩ => exact absurd rfl hb
    · exact Nat.zero_add _
  · rw [dif_neg h]
    by_cases h' : k.val < 256
    · rw [dif_pos h']
      refine concatenate_apply_piece (1 : Fin 2) [⟨S100000x128, x1⟩, ⟨S100000x128, y⟩, ⟨S100000x128, x2⟩] _ (ix2 a k) 1 ?_ S100000x128 y rfl rfl 128 rfl (ix2 a ⟨k.val - 128, by omega⟩) ?_ ?_
      · simp
      · intro b hb
        match b with
        | ⟨0, _⟩ => rfl
        | ⟨1, _⟩ => exact absurd rfl hb
      · show 128 + (k.val - 128) = k.val
        omega
    · rw [dif_neg h']
      refine concatenate_apply_piece (1 : Fin 2) [⟨S100000x128, x1⟩, ⟨S100000x128, y⟩, ⟨S100000x128, x2⟩] _ (ix2 a k) 2 ?_ S100000x128 x2 rfl rfl 256 rfl (ix2 a ⟨k.val - 256, by omega⟩) ?_ ?_
      · simp
      · intro b hb
        match b with
        | ⟨0, _⟩ => rfl
        | ⟨1, _⟩ => exact absurd rfl hb
      · show 256 + (k.val - 256) = k.val
        omega

/-- The first layer's contraction at an entry. -/
theorem v9_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (a : Fin 100000) (j : Fin 128) :
    val_main_v9 (F := Ideal) x0 x1 x2 x4 x6 (ix2 a j)
      = ∑ k : Fin 384, (cat3 (row x1 a) (row (val_main_v6 (F := Ideal) x0 x4) a) (row x2 a)) k * (val_main_v8 (F := Ideal) x6) (ix2 k j) := by
  rw [val_main_v9_apply]
  refine Finset.sum_congr rfl fun k _ => ?_
  rw [show lidx_main_v9 (ix2 a j) k = ix2 a k from funext fun b => Fin.ext (by match b with | ⟨0, _⟩ => rfl | ⟨1, _⟩ => rfl),
    show ridx_main_v9 (ix2 a j) k = ix2 k j from funext fun b => Fin.ext (by match b with | ⟨0, _⟩ => rfl | ⟨1, _⟩ => rfl), v7_at]

/-- The first bias, repeated down the rows. -/
theorem v11_at (x7 : (⟨S128, .f32⟩ : BufTy).Contents (Elt Ideal)) (a : Fin 100000) (j : Fin 128) :
    val_main_v11 (F := Ideal) x7 (ix2 a j) = x7 (ix1 j) := by
  rw [val_main_v11_apply, val_main_v10_apply]
  exact congrArg x7 (funext fun b => Fin.ext (by match b with | ⟨0, _⟩ => rfl))

/-- The first layer before its relu. -/
theorem v12_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (a : Fin 100000) (j : Fin 128) :
    val_main_v12 (F := Ideal) x0 x1 x2 x4 x6 x7 (ix2 a j) = affine (cat3 (row x1 a) (row (val_main_v6 (F := Ideal) x0 x4) a) (row x2 a)) (val_main_v8 (F := Ideal) x6) x7 j := by
  rw [val_main_v12_apply, v9_at, v11_at]
  rfl

/-- The hidden layer. -/
theorem v13_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (a : Fin 100000) (j : Fin 128) :
    val_main_v13 (F := Ideal) x0 x1 x2 x4 x6 x7 (ix2 a j) = hidden (cat3 (row x1 a) (row (val_main_v6 (F := Ideal) x0 x4) a) (row x2 a)) (val_main_v8 (F := Ideal) x6) x7 j := by
  rw [val_main_v13_apply, v12_at, val_main_call0_v0_apply, val_main_call0_cst_apply]
  rfl

/-- The second layer's contraction at an entry. -/
theorem v15_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (a : Fin 100000) (j : Fin 128) :
    val_main_v15 (F := Ideal) x0 x1 x2 x4 x6 x7 x8 (ix2 a j)
      = ∑ k : Fin 128, hidden (cat3 (row x1 a) (row (val_main_v6 (F := Ideal) x0 x4) a) (row x2 a)) (val_main_v8 (F := Ideal) x6) x7 k * (val_main_v14 (F := Ideal) x8) (ix2 k j) := by
  rw [val_main_v15_apply]
  refine Finset.sum_congr rfl fun k _ => ?_
  rw [show lidx_main_v15 (ix2 a j) k = ix2 a k from funext fun b => Fin.ext (by match b with | ⟨0, _⟩ => rfl | ⟨1, _⟩ => rfl),
    show ridx_main_v15 (ix2 a j) k = ix2 k j from funext fun b => Fin.ext (by match b with | ⟨0, _⟩ => rfl | ⟨1, _⟩ => rfl), v13_at]

/-- The second bias, repeated down the rows. -/
theorem v17_at (x9 : (⟨S128, .f32⟩ : BufTy).Contents (Elt Ideal)) (a : Fin 100000) (j : Fin 128) :
    val_main_v17 (F := Ideal) x9 (ix2 a j) = x9 (ix1 j) := by
  rw [val_main_v17_apply, val_main_v16_apply]
  exact congrArg x9 (funext fun b => Fin.ext (by match b with | ⟨0, _⟩ => rfl))

/-- The message of a row, entry by entry. -/
theorem v18_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (a : Fin 100000) (j : Fin 128) :
    val_main_v18 (F := Ideal) x0 x1 x2 x4 x6 x7 x8 x9 (ix2 a j) = message (cat3 (row x1 a) (row (val_main_v6 (F := Ideal) x0 x4) a) (row x2 a)) (val_main_v8 (F := Ideal) x6) x7 (val_main_v14 (F := Ideal) x8) x9 j := by
  rw [val_main_v18_apply, v15_at, v17_at]
  rfl

/-- The reference's array of messages is the specification's, over the whole batch. -/
theorem messages_eq (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal))
    (x7 : (⟨S128, .f32⟩ : BufTy).Contents (Elt Ideal)) (x8 : (⟨S128x128, .f32⟩ : BufTy).Contents (Elt Ideal)) (x9 : (⟨S128, .f32⟩ : BufTy).Contents (Elt Ideal)) :
    val_main_v18 (F := Ideal) x0 x1 x2 x4 x6 x7 x8 x9
      = messagesOf x1 (val_main_v6 (F := Ideal) x0 x4) x2 (val_main_v8 (F := Ideal) x6) x7 (val_main_v14 (F := Ideal) x8) x9 := by
  funext i
  obtain ⟨a, q, rfl⟩ : ∃ a q, i = ix2 a q := ⟨i 0, i 1, eq_ix2 i⟩
  exact v18_at x0 x1 x2 x4 x6 x7 x8 x9 a q

/-- The word of 1.0 is the extended real one, so the reference's spelled-out logistic is the logistic. -/
theorem logistic_spelled (x : Ideal .f32) :
    FloatOps.hostDivf (F := Ideal) (FloatOps.ofBits (F := Ideal) .f32 0x3F800000#32)
        (FloatOps.addf (FloatOps.ofBits (F := Ideal) .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = Ideal.logistic x
  rw [Ideal.ofBits_one_f32]
  rfl

/-- The input-side contraction of the cell at an entry. -/
theorem v20_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (a : Fin 100000) (j : Fin 384) :
    val_main_v20 (F := Ideal) x0 x1 x2 x4 x6 x7 x8 x9 x10 (ix2 a j)
      = ∑ k : Fin 128, (message (cat3 (row x1 a) (row (val_main_v6 (F := Ideal) x0 x4) a) (row x2 a)) (val_main_v8 (F := Ideal) x6) x7 (val_main_v14 (F := Ideal) x8) x9) k * (val_main_v19 (F := Ideal) x10) (ix2 k j) := by
  rw [val_main_v20_apply]
  refine Finset.sum_congr rfl fun k _ => ?_
  rw [show lidx_main_v20 (ix2 a j) k = ix2 a k from funext fun b => Fin.ext (by match b with | ⟨0, _⟩ => rfl | ⟨1, _⟩ => rfl),
    show ridx_main_v20 (ix2 a j) k = ix2 k j from funext fun b => Fin.ext (by match b with | ⟨0, _⟩ => rfl | ⟨1, _⟩ => rfl), v18_at]

/-- The input-side bias, repeated down the rows. -/
theorem v22_at (x11 : (⟨S384, .f32⟩ : BufTy).Contents (Elt Ideal)) (a : Fin 100000) (j : Fin 384) :
    val_main_v22 (F := Ideal) x11 (ix2 a j) = x11 (ix1 j) := by
  rw [val_main_v22_apply, val_main_v21_apply]
  exact congrArg x11 (funext fun b => Fin.ext (by match b with | ⟨0, _⟩ => rfl))

/-- The input-side pre-activation of the cell. -/
theorem v23_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (a : Fin 100000) (j : Fin 384) :
    val_main_v23 (F := Ideal) x0 x1 x2 x4 x6 x7 x8 x9 x10 x11 (ix2 a j) = (affine (message (cat3 (row x1 a) (row (val_main_v6 (F := Ideal) x0 x4) a) (row x2 a)) (val_main_v8 (F := Ideal) x6) x7 (val_main_v14 (F := Ideal) x8) x9) (val_main_v19 (F := Ideal) x10) x11) j := by
  rw [val_main_v23_apply, v20_at, v22_at]
  rfl

/-- The memory-side contraction of the cell at an entry. -/
theorem v25_at (x0 : (⟨S100000, .i32⟩ : BufTy).Contents (Elt Ideal)) (x4 : (⟨S500000x128, .f32⟩ : BufTy).Contents (Elt Ideal)) (x12 : (⟨S384x128, .f32⟩ : BufTy).Contents (Elt Ideal)) (a : Fin 100000) (j : Fin 384) :
    val_main_v25 (F := Ideal) x0 x4 x12 (ix2 a j)
      = ∑ k : Fin 128, (row (val_main_v6 (F := Ideal) x0 x4) a) k * (val_main_v24 (F := Ideal) x12) (ix2 k j) := by
  rw [val_main_v25_apply]
  refine Finset.sum_congr rfl fun k _ => ?_
  rw [show lidx_main_v25 (ix2 a j) k = ix2 a k from funext fun b => Fin.ext (by match b with | ⟨0, _⟩ => rfl | ⟨1, _⟩ => rfl),
    show ridx_main_v25 (ix2 a j) k = ix2 k j from funext fun b => Fin.ext (by match b with | ⟨0, _⟩ => rfl | ⟨1, _⟩ => rfl)]
  rfl

/-- The memory-side bias, repeated down the rows. -/
theorem v27_at (x13 : (⟨S384, .f32⟩ : BufTy).Contents (Elt Ideal)) (a : Fin 100000) (j : Fin 384) :
    val_main_v27 (F := Ideal) x13 (ix2 a j) = x13 (ix1 j) := by
  rw [val_main_v27_apply, val_main_v26_apply]
  exact congrArg x13 (funext fun b => Fin.ext (by match b with | ⟨0, _⟩ => rfl))

/-- The memory-side pre-activation of the cell. -/
theorem v28_at (x0 : (⟨S100000, .i32⟩ : BufTy).Contents (Elt Ideal)) (x4 : (⟨S500000x128, .f32⟩ : BufTy).Contents (Elt Ideal)) (x12 : (⟨S384x128, .f32⟩ : BufTy).Contents (Elt Ideal)) (x13 : (⟨S384, .f32⟩ : BufTy).Contents (Elt Ideal)) (a : Fin 100000) (j : Fin 384) :
    val_main_v28 (F := Ideal) x0 x4 x12 x13 (ix2 a j) = (affine (row (val_main_v6 (F := Ideal) x0 x4) a) (val_main_v24 (F := Ideal) x12) x13) j := by
  rw [val_main_v28_apply, v25_at, v27_at]
  rfl

/-- The reset third of the input side. -/
theorem v29_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (a : Fin 100000) (q : Fin 128) :
    val_main_v29 (F := Ideal) x0 x1 x2 x4 x6 x7 x8 x9 x10 x11 (ix2 a q) = (affine (message (cat3 (row x1 a) (row (val_main_v6 (F := Ideal) x0 x4) a) (row x2 a)) (val_main_v8 (F := Ideal) x6) x7 (val_main_v14 (F := Ideal) x8) x9) (val_main_v19 (F := Ideal) x10) x11) (third 0 (by decide) q) := by
  rw [val_main_v29_apply, show idx_main_v29 (ix2 a q) = ix2 a (third 0 (by decide) q) from funext fun b => Fin.ext (by match b with | ⟨0, _⟩ => rfl | ⟨1, _⟩ => exact (Nat.zero_add _).symm), v23_at]

/-- The update third of the input side. -/
theorem v30_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (a : Fin 100000) (q : Fin 128) :
    val_main_v30 (F := Ideal) x0 x1 x2 x4 x6 x7 x8 x9 x10 x11 (ix2 a q) = (affine (message (cat3 (row x1 a) (row (val_main_v6 (F := Ideal) x0 x4) a) (row x2 a)) (val_main_v8 (F := Ideal) x6) x7 (val_main_v14 (F := Ideal) x8) x9) (val_main_v19 (F := Ideal) x10) x11) (third 128 (by decide) q) := by
  rw [val_main_v30_apply, show idx_main_v30 (ix2 a q) = ix2 a (third 128 (by decide) q) from funext fun b => Fin.ext (by match b with | ⟨0, _⟩ => rfl | ⟨1, _⟩ => rfl), v23_at]

/-- The candidate third of the input side. -/
theorem v31_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (a : Fin 100000) (q : Fin 128) :
    val_main_v31 (F := Ideal) x0 x1 x2 x4 x6 x7 x8 x9 x10 x11 (ix2 a q) = (affine (message (cat3 (row x1 a) (row (val_main_v6 (F := Ideal) x0 x4) a) (row x2 a)) (val_main_v8 (F := Ideal) x6) x7 (val_main_v14 (F := Ideal) x8) x9) (val_main_v19 (F := Ideal) x10) x11) (third 256 (by decide) q) := by
  rw [val_main_v31_apply, show idx_main_v31 (ix2 a q) = ix2 a (third 256 (by decide) q) from funext fun b => Fin.ext (by match b with | ⟨0, _⟩ => rfl | ⟨1, _⟩ => rfl), v23_at]

/-- The reset third of the memory side. -/
theorem v32_at (x0 : (⟨S100000, .i32⟩ : BufTy).Contents (Elt Ideal)) (x4 : (⟨S500000x128, .f32⟩ : BufTy).Contents (Elt Ideal)) (x12 : (⟨S384x128, .f32⟩ : BufTy).Contents (Elt Ideal)) (x13 : (⟨S384, .f32⟩ : BufTy).Contents (Elt Ideal)) (a : Fin 100000) (q : Fin 128) :
    val_main_v32 (F := Ideal) x0 x4 x12 x13 (ix2 a q) = (affine (row (val_main_v6 (F := Ideal) x0 x4) a) (val_main_v24 (F := Ideal) x12) x13) (third 0 (by decide) q) := by
  rw [val_main_v32_apply, show idx_main_v32 (ix2 a q) = ix2 a (third 0 (by decide) q) from funext fun b => Fin.ext (by match b with | ⟨0, _⟩ => rfl | ⟨1, _⟩ => exact (Nat.zero_add _).symm), v28_at]

/-- The update third of the memory side. -/
theorem v33_at (x0 : (⟨S100000, .i32⟩ : BufTy).Contents (Elt Ideal)) (x4 : (⟨S500000x128, .f32⟩ : BufTy).Contents (Elt Ideal)) (x12 : (⟨S384x128, .f32⟩ : BufTy).Contents (Elt Ideal)) (x13 : (⟨S384, .f32⟩ : BufTy).Contents (Elt Ideal)) (a : Fin 100000) (q : Fin 128) :
    val_main_v33 (F := Ideal) x0 x4 x12 x13 (ix2 a q) = (affine (row (val_main_v6 (F := Ideal) x0 x4) a) (val_main_v24 (F := Ideal) x12) x13) (third 128 (by decide) q) := by
  rw [val_main_v33_apply, show idx_main_v33 (ix2 a q) = ix2 a (third 128 (by decide) q) from funext fun b => Fin.ext (by match b with | ⟨0, _⟩ => rfl | ⟨1, _⟩ => rfl), v28_at]

/-- The candidate third of the memory side. -/
theorem v34_at (x0 : (⟨S100000, .i32⟩ : BufTy).Contents (Elt Ideal)) (x4 : (⟨S500000x128, .f32⟩ : BufTy).Contents (Elt Ideal)) (x12 : (⟨S384x128, .f32⟩ : BufTy).Contents (Elt Ideal)) (x13 : (⟨S384, .f32⟩ : BufTy).Contents (Elt Ideal)) (a : Fin 100000) (q : Fin 128) :
    val_main_v34 (F := Ideal) x0 x4 x12 x13 (ix2 a q) = (affine (row (val_main_v6 (F := Ideal) x0 x4) a) (val_main_v24 (F := Ideal) x12) x13) (third 256 (by decide) q) := by
  rw [val_main_v34_apply, show idx_main_v34 (ix2 a q) = ix2 a (third 256 (by decide) q) from funext fun b => Fin.ext (by match b with | ⟨0, _⟩ => rfl | ⟨1, _⟩ => rfl), v28_at]

/-- The reset gate. -/
theorem v41_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (x12 : (⟨S384x128, .f32⟩ : BufTy).Contents (Elt Ideal)) (x13 : (⟨S384, .f32⟩ : BufTy).Contents (Elt Ideal)) (a : Fin 100000) (q : Fin 128) :
    val_main_v41 (F := Ideal) x0 x1 x2 x4 x6 x7 x8 x9 x10 x11 x12 x13 (ix2 a q) = Ideal.logistic ((affine (message (cat3 (row x1 a) (row (val_main_v6 (F := Ideal) x0 x4) a) (row x2 a)) (val_main_v8 (F := Ideal) x6) x7 (val_main_v14 (F := Ideal) x8) x9) (val_main_v19 (F := Ideal) x10) x11) (third 0 (by decide) q) + (affine (row (val_main_v6 (F := Ideal) x0 x4) a) (val_main_v24 (F := Ideal) x12) x13) (third 0 (by decide) q)) := by
  rw [val_main_v41_apply, val_main_v40_apply, val_main_cst_1_apply, val_main_v39_apply, val_main_v38_apply,
    val_main_cst_apply, val_main_v37_apply, val_main_v36_apply, val_main_v35_apply, v29_at, v32_at]
  exact logistic_spelled _

/-- The update gate. -/
theorem v48_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (x12 : (⟨S384x128, .f32⟩ : BufTy).Contents (Elt Ideal)) (x13 : (⟨S384, .f32⟩ : BufTy).Contents (Elt Ideal)) (a : Fin 100000) (q : Fin 128) :
    val_main_v48 (F := Ideal) x0 x1 x2 x4 x6 x7 x8 x9 x10 x11 x12 x13 (ix2 a q) = Ideal.logistic ((affine (message (cat3 (row x1 a) (row (val_main_v6 (F := Ideal) x0 x4) a) (row x2 a)) (val_main_v8 (F := Ideal) x6) x7 (val_main_v14 (F := Ideal) x8) x9) (val_main_v19 (F := Ideal) x10) x11) (third 128 (by decide) q) + (affine (row (val_main_v6 (F := Ideal) x0 x4) a) (val_main_v24 (F := Ideal) x12) x13) (third 128 (by decide) q)) := by
  rw [val_main_v48_apply, val_main_v47_apply, val_main_cst_3_apply, val_main_v46_apply, val_main_v45_apply,
    val_main_cst_2_apply, val_main_v44_apply, val_main_v43_apply, val_main_v42_apply, v30_at, v33_at]
  exact logistic_spelled _

/-- The candidate. -/
theorem v51_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (x12 : (⟨S384x128, .f32⟩ : BufTy).Contents (Elt Ideal)) (x13 : (⟨S384, .f32⟩ : BufTy).Contents (Elt Ideal)) (a : Fin 100000) (q : Fin 128) :
    val_main_v51 (F := Ideal) x0 x1 x2 x4 x6 x7 x8 x9 x10 x11 x12 x13 (ix2 a q) = Ideal.tanh ((affine (message (cat3 (row x1 a) (row (val_main_v6 (F := Ideal) x0 x4) a) (row x2 a)) (val_main_v8 (F := Ideal) x6) x7 (val_main_v14 (F := Ideal) x8) x9) (val_main_v19 (F := Ideal) x10) x11) (third 256 (by decide) q) + Ideal.logistic ((affine (message (cat3 (row x1 a) (row (val_main_v6 (F := Ideal) x0 x4) a) (row x2 a)) (val_main_v8 (F := Ideal) x6) x7 (val_main_v14 (F := Ideal) x8) x9) (val_main_v19 (F := Ideal) x10) x11) (third 0 (by decide) q) + (affine (row (val_main_v6 (F := Ideal) x0 x4) a) (val_main_v24 (F := Ideal) x12) x13) (third 0 (by decide) q)) * (affine (row (val_main_v6 (F := Ideal) x0 x4) a) (val_main_v24 (F := Ideal) x12) x13) (third 256 (by decide) q)) := by
  rw [val_main_v51_apply, val_main_v50_apply, val_main_v49_apply, v31_at, v41_at, v34_at]
  rfl

/-- The new memory row of a batch row, entry by entry. -/
theorem v56_at (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal)) (x11 : (⟨S384, .f32⟩ : BufTy).Contents (Elt Ideal)) (x12 : (⟨S384x128, .f32⟩ : BufTy).Contents (Elt Ideal)) (x13 : (⟨S384, .f32⟩ : BufTy).Contents (Elt Ideal)) (a : Fin 100000) (q : Fin 128) :
    val_main_v56 (F := Ideal) x0 x1 x2 x4 x6 x7 x8 x9 x10 x11 x12 x13 (ix2 a q)
      = updated (cat3 (row x1 a) (row (val_main_v6 (F := Ideal) x0 x4) a) (row x2 a)) (row (val_main_v6 (F := Ideal) x0 x4) a) (val_main_v8 (F := Ideal) x6) x7 (val_main_v14 (F := Ideal) x8) x9 (val_main_v19 (F := Ideal) x10) x11 (val_main_v24 (F := Ideal) x12) x13 q := by
  rw [val_main_v56_apply, val_main_v54_apply, val_main_v53_apply, val_main_v52_apply, val_main_cst_4_apply,
    val_main_v55_apply, v48_at, v51_at]
  rfl

/-- The reference's array of new memory rows is the specification's, over the whole batch. -/
theorem updated_eq (x0 : (⟨S100000, .i32⟩ : BufTy).Contents (Elt Ideal)) (x1 x2 : (⟨S100000x128, .f32⟩ : BufTy).Contents (Elt Ideal)) (x4 : (⟨S500000x128, .f32⟩ : BufTy).Contents (Elt Ideal)) (x6 : (⟨S128x384, .f32⟩ : BufTy).Contents (Elt Ideal))
    (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S384x128, .f32⟩ : BufTy).Contents (Elt Ideal))
    (x11 : (⟨S384, .f32⟩ : BufTy).Contents (Elt Ideal)) (x12 : (⟨S384x128, .f32⟩ : BufTy).Contents (Elt Ideal)) (x13 : (⟨S384, .f32⟩ : BufTy).Contents (Elt Ideal)) :
    val_main_v56 (F := Ideal) x0 x1 x2 x4 x6 x7 x8 x9 x10 x11 x12 x13
      = updatedOf x1 (val_main_v6 (F := Ideal) x0 x4) x2 (val_main_v8 (F := Ideal) x6) x7 (val_main_v14 (F := Ideal) x8) x9 (val_main_v19 (F := Ideal) x10) x11 (val_main_v24 (F := Ideal) x12) x13 := by
  funext i
  obtain ⟨a, q, rfl⟩ : ∃ a q, i = ix2 a q := ⟨i 0, i 1, eq_ix2 i⟩
  exact v56_at x0 x1 x2 x4 x6 x7 x8 x9 x10 x11 x12 x13 a q

end Cert.ReferenceIdeal.Rows
end
-- ==== Proof.lean ====
/-
  A message network followed by a GRU cell, on 1000-row blocks of a 100000-row batch, against the same computation
  written with whole-array operations.

  Both programs gather the memory rows at the node indices (a negative index wrapped by the table's 500000 rows), compute
  per batch row the message `relu ([nf | mem | ef] · W1ᵀ + b1) · W2ᵀ + b2` and the GRU update
  `(1 - z) · n + z · mem` with `r = σ (gi_r + gh_r)`, `z = σ (gi_z + gh_z)`, `n = tanh (gi_n + r · gh_n)`,
  `gi = message · W_ihᵀ + b_ih`, `gh = mem · W_hhᵀ + b_hh`, and scatter the new rows, the timestamps and the messages
  back at the same indices. At the ideal instance a change of float format is the identity, a matrix product into a zero
  accumulator is the contraction's sum, and the kernel's logistic is the reference's `1 / (1 + exp (-x))`; every
  operation is read at an index and both sides are the SAME per-row function of the same rows (Proof/GruRow.lean), so no
  algebraic law is needed and the precondition is never opened. The kernel computes it block by block: block `t` of each
  result is block `t` of the whole-batch function, and the 100 blocks tile the batch (Proof/KernelValue.lean). The three
  scatters are the same operation applied to equal operands.

  The word-level kernel and the idealized kernel each run, end, and leave their arguments unchanged by the generated frame;
  the reference by its generated run; the idealization rewrote nothing.
-/
import proofs.«139267_j34033320854152_1_alg».proof.Defs
import proofs.«139267_j34033320854152_1_alg».proof.Proof.Gen.Kernel
import proofs.«139267_j34033320854152_1_alg».proof.Proof.Gen.Kernel.Skeleton
import proofs.«139267_j34033320854152_1_alg».proof.Proof.Gen.Kernel.Launch
import proofs.«139267_j34033320854152_1_alg».proof.Proof.Gen.Kernel.Points
import proofs.«139267_j34033320854152_1_alg».proof.Proof.Gen.Kernel.Frame
import proofs.«139267_j34033320854152_1_alg».proof.Proof.Gen.KernelIdeal
import proofs.«139267_j34033320854152_1_alg».proof.Proof.Gen.KernelIdeal.Skeleton
import proofs.«139267_j34033320854152_1_alg».proof.Proof.Gen.KernelIdeal.Launch
import proofs.«139267_j34033320854152_1_alg».proof.Proof.Gen.KernelIdeal.Points
import proofs.«139267_j34033320854152_1_alg».proof.Proof.Gen.KernelIdeal.Frame
import proofs.«139267_j34033320854152_1_alg».proof.Proof.Gen.ReferenceIdeal
import proofs.«139267_j34033320854152_1_alg».proof.Proof.Gen.Pre_finite_inputs
import proofs.«139267_j34033320854152_1_alg».proof.Proof.Gen.ReferenceIdeal.Run
import proofs.«139267_j34033320854152_1_alg».proof.Proof.Gen.ReferenceIdeal.Read
import proofs.«139267_j34033320854152_1_alg».proof.Proof.GruRow
import proofs.«139267_j34033320854152_1_alg».proof.Proof.KernelValue
import proofs.«139267_j34033320854152_1_alg».proof.Proof.ReferenceRows
import Idealize.ShloMosaic.Adequacy
import Idealize.ShloMosaic.Init

noncomputable section

namespace Cert.Proof

open Idealize.ShloMosaic Idealize.SL.Sem

/-- The word-level kernel runs, ends, and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs end with the three tables at the same scatters: the new memory rows and the messages are the
    same whole-batch functions of arguments that agree, the timestamps are an argument. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨h0, h1, h2, h3, h4, h5, h6, h7, h8, h9, h10, h11, h12, h13⟩ := hagree c
    rw [Cert.ReferenceIdeal.Read.val_main_v63_eq]
    unfold Cert.ReferenceIdeal.Read.val_main_v63
    rw [Cert.ReferenceIdeal.Rows.updated_eq, h0, h1, h2, h4, h6, h7, h8, h9, h10, h11, h12, h13]
    rfl
  · obtain ⟨h0, h1, h2, h3, h4, h5, h6, h7, h8, h9, h10, h11, h12, h13⟩ := hagree c
    rw [h0, h3, h5]
    rfl
  · obtain ⟨h0, h1, h2, h3, h4, h5, h6, h7, h8, h9, h10, h11, h12, h13⟩ := hagree c
    rw [Cert.ReferenceIdeal.Read.val_main_v78_eq]
    unfold Cert.ReferenceIdeal.Read.val_main_v78
    rw [Cert.ReferenceIdeal.Rows.messages_eq, h0, h1, h2, h4, h6, h7, h8, h9]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
